-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S96x128 : Shape := ⟨2, ![96, 128]⟩
abbrev S96 : Shape := ⟨1, ![96]⟩
abbrev S3x96x96 : Shape := ⟨3, ![3, 96, 96]⟩
abbrev S3x96 : Shape := ⟨2, ![3, 96]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S3x96 .f32) (main_arg6 : FVec F S128x384 .f32) (main_arg7 : FVec F S128 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S96x128 .f32) (main_arg3 : FVec F S96 .f32) (main_arg4 : FVec F S3x96x96 .f32) (main_arg5 : FVec F S3x96 .f32) (main_arg6 : FVec F S128x384 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S96x128 : Shape := ⟨2, ![96, 128]⟩
abbrev S96 : Shape := ⟨1, ![96]⟩
abbrev S3x96x96 : Shape := ⟨3, ![3, 96, 96]⟩
abbrev S3x96 : Shape := ⟨2, ![3, 96]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S128x96 : Shape := ⟨2, ![128, 96]⟩
abbrev S1x96 : Shape := ⟨2, ![1, 96]⟩
abbrev S50000x96 : Shape := ⟨2, ![50000, 96]⟩
abbrev S2000x128 : Shape := ⟨2, ![2000, 128]⟩
abbrev S2000x96 : Shape := ⟨2, ![2000, 96]⟩
abbrev S_ : Shape := ⟨0, ![]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S50000x384 : Shape := ⟨2, ![50000, 384]⟩
abbrev S384x128 : Shape := ⟨2, ![384, 128]⟩
abbrev S1x128 : Shape := ⟨2, ![1, 128]⟩
abbrev S2000x384 : Shape := ⟨2, ![2000, 384]⟩

abbrev nBuf : Space → Nat
  | .hbm => 79
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S96x128, .f32⟩
  | .hbm, ⟨3, _⟩ => ⟨S96, .f32⟩
  | .hbm, ⟨4, _⟩ => ⟨S3x96x96, .f32⟩
  | .hbm, ⟨5, _⟩ => ⟨S3x96, .f32⟩
  | .hbm, ⟨6, _⟩ => ⟨S128x384, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x96, .f32⟩
  | .hbm, ⟨13, _⟩ => ⟨S1x96, .f32⟩
  | .hbm, ⟨14, _⟩ => ⟨S50000x96, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S_, .f32⟩
  | .hbm, ⟨25, _⟩ => ⟨S50000x96, .f32⟩
  | .hbm, ⟨26, _⟩ => ⟨S800000x1, .i32⟩
  | .hbm, ⟨27, _⟩ => ⟨S50000x96, .f32⟩
  | .hbm, ⟨28, _⟩ => ⟨S1x96x96, .f32⟩
  | .hbm, ⟨29, _⟩ => ⟨S96x96, .f32⟩
  | .hbm, ⟨30, _⟩ => ⟨S1x96, .f32⟩
  | .hbm, ⟨31, _⟩ => ⟨S96, .f32⟩
  | .hbm, ⟨32, _⟩ => ⟨S96x96, .f32⟩
  | .hbm, ⟨33, _⟩ => ⟨S1x96, .f32⟩
  | .hbm, ⟨34, _⟩ => ⟨S50000x96, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x96, .f32⟩
  | .hbm, ⟨44, _⟩ => ⟨S_, .f32⟩
  | .hbm, ⟨45, _⟩ => ⟨S50000x96, .f32⟩
  | .hbm, ⟨46, _⟩ => ⟨S800000x1, .i32⟩
  | .hbm, ⟨47, _⟩ => ⟨S50000x96, .f32⟩
  | .hbm, ⟨48, _⟩ => ⟨S1x96x96, .f32⟩
  | .hbm, ⟨49, _⟩ => ⟨S96x96, .f32⟩
  | .hbm, ⟨50, _⟩ => ⟨S1x96, .f32⟩
  | .hbm, ⟨51, _⟩ => ⟨S96, .f32⟩
  | .hbm, ⟨52, _⟩ => ⟨S96x96, .f32⟩
  | .hbm, ⟨53, _⟩ => ⟨S1x96, .f32⟩
  | .hbm, ⟨54, _⟩ => ⟨S50000x96, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x96, .f32⟩
  | .hbm, ⟨64, _⟩ => ⟨S_, .f32⟩
  | .hbm, ⟨65, _⟩ => ⟨S50000x96, .f32⟩
  | .hbm, ⟨66, _⟩ => ⟨S800000x1, .i32⟩
  | .hbm, ⟨67, _⟩ => ⟨S50000x96, .f32⟩
  | .hbm, ⟨68, _⟩ => ⟨S1x96x96, .f32⟩
  | .hbm, ⟨69, _⟩ => ⟨S96x96, .f32⟩
  | .hbm, ⟨70, _⟩ => ⟨S1x96, .f32⟩
  | .hbm, ⟨71, _⟩ => ⟨S96, .f32⟩
  | .hbm, ⟨72, _⟩ => ⟨S96x96, .f32⟩
  | .hbm, ⟨73, _⟩ => ⟨S1x96, .f32⟩
  | .hbm, ⟨74, _⟩ => ⟨S50000x96, .f32⟩
  | .hbm, ⟨75, _⟩ => ⟨S50000x384, .f32⟩
  | .hbm, ⟨76, _⟩ => ⟨S384x128, .f32⟩
  | .hbm, ⟨77, _⟩ => ⟨S1x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S1x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S96x96, .f32⟩
  | .local _ .vmem, ⟨11, _⟩ => ⟨S1x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S96x96, .f32⟩
  | .local _ .vmem, ⟨19, _⟩ => ⟨S1x96, .f32⟩
  | .local _ .vmem, ⟨20, _⟩ => ⟨S2000x96, .f32⟩
  | .local _ .vmem, ⟨21, _⟩ => ⟨S2000x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S2000x96, .f32⟩
  | .local _ .vmem, ⟨26, _⟩ => ⟨S96x96, .f32⟩
  | .local _ .vmem, ⟨27, _⟩ => ⟨S1x96, .f32⟩
  | .local _ .vmem, ⟨28, _⟩ => ⟨S2000x96, .f32⟩
  | .local _ .vmem, ⟨29, _⟩ => ⟨S2000x96, .f32⟩
  | .local _ .vmem, ⟨30, _⟩ => ⟨S2000x384, .f32⟩
  | .local _ .vmem, ⟨31, _⟩ => ⟨S2000x384, .f32⟩
  | .local _ .vmem, ⟨32, _⟩ => ⟨S384x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S96x128_S128x96_1_0 : S96x128.Transposes [1, 0] S128x96
  shapeCasts_S96_S1x96 : S96.ShapeCasts S1x96
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  transposes_S96x96_S96x96_1_0 : S96x96.Transposes [1, 0] S96x96
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  concatenates_S50000x96_S50000x96_S50000x96_S50000x96_S50000x384_d1 : Shape.Concatenates [S50000x96, S50000x96, S50000x96, S50000x96] S50000x384 1
  transposes_S128x384_S384x128_1_0 : S128x384.Transposes [1, 0] S384x128
  shapeCasts_S128_S1x128 : S128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x96_S2000x96_1_0_0_1_n_n_wf : DotDims.WF S2000x128 S128x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x96.size a ≤ S50000x96.size a
  hwx2_1 : ∀ i : grid2.Coords, EltTy.bits .f32 = 32 ∨ (Rect.block (s := S50000x96) S2000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x96.size a ≤ S50000x96.size a
  hwx2_4 : ∀ i : grid2.Coords, EltTy.bits .f32 = 32 ∨ (Rect.block (s := S50000x96) S2000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x96.size a ≤ S50000x96.size a
  hwx3_4 : ∀ i : grid3.Coords, EltTy.bits .f32 = 32 ∨ (Rect.block (s := S50000x96) S2000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S50000x384.size a
  hwx4_0 : ∀ i : grid4.Coords, EltTy.bits .f32 = 32 ∨ (Rect.block (s := S50000x384) S2000x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S2000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S96x128 : Shape := ⟨2, ![96, 128]⟩
abbrev S96 : Shape := ⟨1, ![96]⟩
abbrev S3x96x96 : Shape := ⟨3, ![3, 96, 96]⟩
abbrev S3x96 : Shape := ⟨2, ![3, 96]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S128x96 : Shape := ⟨2, ![128, 96]⟩
abbrev S50000x96 : Shape := ⟨2, ![50000, 96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S50000x384 : Shape := ⟨2, ![50000, 384]⟩
abbrev S384x128 : Shape := ⟨2, ![384, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S96x128, .f32⟩
  | .hbm, ⟨3, _⟩ => ⟨S96, .f32⟩
  | .hbm, ⟨4, _⟩ => ⟨S3x96x96, .f32⟩
  | .hbm, ⟨5, _⟩ => ⟨S3x96, .f32⟩
  | .hbm, ⟨6, _⟩ => ⟨S128x384, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x96, .f32⟩
  | .hbm, ⟨13, _⟩ => ⟨S50000x96, .f32⟩
  | .hbm, ⟨14, _⟩ => ⟨S1x96, .f32⟩
  | .hbm, ⟨15, _⟩ => ⟨S50000x96, .f32⟩
  | .hbm, ⟨16, _⟩ => ⟨S50000x96, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x96, .f32⟩
  | .hbm, ⟨31, _⟩ => ⟨S1x96x96, .f32⟩
  | .hbm, ⟨32, _⟩ => ⟨S96x96, .f32⟩
  | .hbm, ⟨33, _⟩ => ⟨S96x96, .f32⟩
  | .hbm, ⟨34, _⟩ => ⟨S50000x96, .f32⟩
  | .hbm, ⟨35, _⟩ => ⟨S1x96, .f32⟩
  | .hbm, ⟨36, _⟩ => ⟨S96, .f32⟩
  | .hbm, ⟨37, _⟩ => ⟨S1x96, .f32⟩
  | .hbm, ⟨38, _⟩ => ⟨S50000x96, .f32⟩
  | .hbm, ⟨39, _⟩ => ⟨S50000x96, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x96, .f32⟩
  | .hbm, ⟨49, _⟩ => ⟨S_, .f32⟩
  | .hbm, ⟨50, _⟩ => ⟨S50000x96, .f32⟩
  | .hbm, ⟨51, _⟩ => ⟨S800000x1, .i32⟩
  | .hbm, ⟨52, _⟩ => ⟨S50000x96, .f32⟩
  | .hbm, ⟨53, _⟩ => ⟨S50000x96, .f32⟩
  | .hbm, ⟨54, _⟩ => ⟨S1x96x96, .f32⟩
  | .hbm, ⟨55, _⟩ => ⟨S96x96, .f32⟩
  | .hbm, ⟨56, _⟩ => ⟨S96x96, .f32⟩
  | .hbm, ⟨57, _⟩ => ⟨S50000x96, .f32⟩
  | .hbm, ⟨58, _⟩ => ⟨S1x96, .f32⟩
  | .hbm, ⟨59, _⟩ => ⟨S96, .f32⟩
  | .hbm, ⟨60, _⟩ => ⟨S1x96, .f32⟩
  | .hbm, ⟨61, _⟩ => ⟨S50000x96, .f32⟩
  | .hbm, ⟨62, _⟩ => ⟨S50000x96, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x96, .f32⟩
  | .hbm, ⟨72, _⟩ => ⟨S_, .f32⟩
  | .hbm, ⟨73, _⟩ => ⟨S50000x96, .f32⟩
  | .hbm, ⟨74, _⟩ => ⟨S800000x1, .i32⟩
  | .hbm, ⟨75, _⟩ => ⟨S50000x96, .f32⟩
  | .hbm, ⟨76, _⟩ => ⟨S50000x96, .f32⟩
  | .hbm, ⟨77, _⟩ => ⟨S1x96x96, .f32⟩
  | .hbm, ⟨78, _⟩ => ⟨S96x96, .f32⟩
  | .hbm, ⟨79, _⟩ => ⟨S96x96, .f32⟩
  | .hbm, ⟨80, _⟩ => ⟨S50000x96, .f32⟩
  | .hbm, ⟨81, _⟩ => ⟨S1x96, .f32⟩
  | .hbm, ⟨82, _⟩ => ⟨S96, .f32⟩
  | .hbm, ⟨83, _⟩ => ⟨S1x96, .f32⟩
  | .hbm, ⟨84, _⟩ => ⟨S50000x96, .f32⟩
  | .hbm, ⟨85, _⟩ => ⟨S50000x96, .f32⟩
  | .hbm, ⟨86, _⟩ => ⟨S50000x384, .f32⟩
  | .hbm, ⟨87, _⟩ => ⟨S384x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_4 : Ref sig .tc := ⟨.hbm, 63, rfl⟩
abbrev main_v49 : Ref sig .tc := ⟨.hbm, 64, rfl⟩
abbrev main_v50 : Ref sig .tc := ⟨.hbm, 65, rfl⟩
abbrev main_c_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S96x128_S128x96_1_0 : S96x128.Transposes [1, 0] S128x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  transposes_S96x96_S96x96_1_0 : S96x96.Transposes [1, 0] S96x96
  slices_S3x96_S1x96_0_0 : S3x96.Slices ![0, 0] S1x96
  shapeCasts_S1x96_S96 : S1x96.ShapeCasts S96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  concatenates_S50000x96_S50000x96_S50000x96_S50000x96_S50000x384_d1 : Shape.Concatenates [S50000x96, S50000x96, S50000x96, S50000x96] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x384_S384x128_S50000x128_1_0_0_1_n_n_wf : DotDims.WF S50000x384 S384x128 S50000x128 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.K.R0.lean ====
/-
  Region 0 of @main (a linear layer, one grid axis over the node rows), at the buffer contents `V` the region is
  entered with: what each window's block is at a grid point, what the body leaves in the output's staging buffer
  (its one store, over the payload of the three loaded blocks), the body's triple, and the pipeline's proof data
  with its body obligation at every point.  The three input windows are only read; the weight and bias windows
  hold one block for the whole grid, so an unfetched point still finds its block in place.
-/
import proofs.«155949_j8452495638861_1_alg».proof.Proof.Gen.Kernel.Launch
import proofs.«155949_j8452495638861_1_alg».proof.Proof.Gen.Kernel.Skeleton
import proofs.«155949_j8452495638861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2000x128 := Rect.unit (s := S2000x128) ![0, 0] S2000x128.size inb_S2000x128_S2000x128_0_0
abbrev rw0 : Rect S128x96 := Rect.unit (s := S128x96) ![0, 0] S128x96.size inb_S128x96_S128x96_0_0
abbrev rb0 : Rect S1x96 := Rect.unit (s := S1x96) ![0, 0] S1x96.size inb_S1x96_S1x96_0_0
abbrev ro0 : Rect S2000x96 := Rect.unit (s := S2000x96) ![0, 0] S2000x96.size inb_S2000x96_S2000x96_0_0

/-- The output window's staging buffer after the body, from the three input blocks: its one store. -/
def out0 (x0 : Vec F S2000x128 .f32) (x1 : Vec F S128x96 .f32) (x2 : Vec F S1x96 .f32) : Vec F S2000x96 .f32 :=
  View.canon [⟨ro0, k0_pay1 (View.ld x0 rx0) (View.ld x1 rw0) (View.ld x2 rb0)⟩]

/-- The store covers the buffer. -/
theorem cover0 (p0 : Vec F S2000x96 .f32) (y : S2000x96.Idx) :
    ∃ pc ∈ ([⟨ro0, p0⟩] : List (View.Piece (Elt F) S2000x96 .f32)), y ∈ pc.1.set :=
  View.cover_of_tiled [⟨ro0, p0⟩] S2000x96.size (by rfl) y

set_option maxHeartbeats 1000000 in
/-- The body on whole staging memrefs, the inputs' at contents `x0 x1 x2` and the output's at anything, runs to the
    continuation holding the inputs' as they were and the output's at `out0` of them. -/
theorem sound_kernel0 (c : Dev nD) (E : Set ℕ) (i : grid0.Coords)
    (arg1 : Memref sig .tc .vmem S2000x128 .f32) (harg1 : arg1.IsWhole) (arg2 : Memref sig .tc .vmem S128x96 .f32) (harg2 : arg2.IsWhole)
    (arg3 : Memref sig .tc .vmem S1x96 .f32) (harg3 : arg3.IsWhole) (arg4 : Memref sig .tc .vmem S2000x96 .f32) (harg4 : arg4.IsWhole)
    (x0 : Vec F S2000x128 .f32) (x1 : Vec F S128x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data on core `c`: the arrays as the region finds them; after the body at point `t` each
    input's buffer at its block and the output's at `out0` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
/-
  Region 1 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.Kernel.Launch
import proofs.«155949_j8452495638861_1_alg».proof.Proof.Gen.Kernel.Skeleton
import proofs.«155949_j8452495638861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rh1 : Rect S2000x96 := Rect.unit (s := S2000x96) ![0, 0] S2000x96.size inb_S2000x96_S2000x96_0_0
abbrev rw1 : Rect S96x96 := Rect.unit (s := S96x96) ![0, 0] S96x96.size inb_S96x96_S96x96_0_0
abbrev rb1 : Rect S1x96 := Rect.unit (s := S1x96) ![0, 0] S1x96.size inb_S1x96_S1x96_0_0

/-- The output window's staging buffer after the body, from the four input blocks: its one store. -/
def out1 (x0 x1 : Vec F S2000x96 .f32) (x2 : Vec F S96x96 .f32) (x3 : Vec F S1x96 .f32) : Vec F S2000x96 .f32 :=
  View.canon [⟨rh1, k1_pay1 (View.ld x0 rh1) (View.ld x1 rh1) (View.ld x2 rw1) (View.ld x3 rb1)⟩]

/-- The store covers the buffer. -/
theorem cover1 (p0 : Vec F S2000x96 .f32) (y : S2000x96.Idx) :
    ∃ pc ∈ ([⟨rh1, p0⟩] : List (View.Piece (Elt F) S2000x96 .f32)), y ∈ pc.1.set :=
  View.cover_of_tiled [⟨rh1, p0⟩] S2000x96.size (by rfl) y

set_option maxHeartbeats 1000000 in
/-- The body on whole staging memrefs, the inputs' at contents `x0 x1 x2 x3` and the output's at anything, runs to the
    continuation holding the inputs' as they were and the output's at `out1` of them. -/
theorem sound_kernel1 (c : Dev nD) (E : Set ℕ) (i : grid1.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__graph_layer_kernel i arg1 harg1 arg2 harg2 arg3 harg3 arg4 harg4 arg5 harg5) K := by
  simp only [cc1__graph_layer_kernel_eq_skeleton]; unfold cc1__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The pipeline's proof data on core `c`: the arrays as the region finds them; after the body at point `t` each
    input's buffer at its block and the output's at `out1` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2.lean ====
/-
  Region 2 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.Kernel.Launch
import proofs.«155949_j8452495638861_1_alg».proof.Proof.Gen.Kernel.Skeleton
import proofs.«155949_j8452495638861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rh2 : Rect S2000x96 := Rect.unit (s := S2000x96) ![0, 0] S2000x96.size inb_S2000x96_S2000x96_0_0
abbrev rw2 : Rect S96x96 := Rect.unit (s := S96x96) ![0, 0] S96x96.size inb_S96x96_S96x96_0_0
abbrev rb2 : Rect S1x96 := Rect.unit (s := S1x96) ![0, 0] S1x96.size inb_S1x96_S1x96_0_0

/-- The output window's staging buffer after the body, from the four input blocks: its one store. -/
def out2 (x0 x1 : Vec F S2000x96 .f32) (x2 : Vec F S96x96 .f32) (x3 : Vec F S1x96 .f32) : Vec F S2000x96 .f32 :=
  View.canon [⟨rh2, k2_pay1 (View.ld x0 rh2) (View.ld x1 rh2) (View.ld x2 rw2) (View.ld x3 rb2)⟩]

/-- The store covers the buffer. -/
theorem cover2 (p0 : Vec F S2000x96 .f32) (y : S2000x96.Idx) :
    ∃ pc ∈ ([⟨rh2, p0⟩] : List (View.Piece (Elt F) S2000x96 .f32)), y ∈ pc.1.set :=
  View.cover_of_tiled [⟨rh2, p0⟩] S2000x96.size (by rfl) y

set_option maxHeartbeats 1000000 in
/-- The body on whole staging memrefs, the inputs' at contents `x0 x1 x2 x3` and the output's at anything, runs to the
    continuation holding the inputs' as they were and the output's at `out2` of them. -/
theorem sound_kernel2 (c : Dev nD) (E : Set ℕ) (i : grid2.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2 x0 x1 x2 x3)) -∗ K ⟨⟩))
      ⊢ wp frame (wpE (defs₀ (F := F)) Variants.none c none) E (cc2__graph_layer_kernel i arg1 harg1 arg2 harg2 arg3 harg3 arg4 harg4 arg5 harg5) K := by
  simp only [cc2__graph_layer_kernel_eq_skeleton]; unfold cc2__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The pipeline's proof data on core `c`: the arrays as the region finds them; after the body at point `t` each
    input's buffer at its block and the output's at `out2` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.R3.lean ====
/-
  Region 3 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.Kernel.Launch
import proofs.«155949_j8452495638861_1_alg».proof.Proof.Gen.Kernel.Skeleton
import proofs.«155949_j8452495638861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rh3 : Rect S2000x96 := Rect.unit (s := S2000x96) ![0, 0] S2000x96.size inb_S2000x96_S2000x96_0_0
abbrev rw3 : Rect S96x96 := Rect.unit (s := S96x96) ![0, 0] S96x96.size inb_S96x96_S96x96_0_0
abbrev rb3 : Rect S1x96 := Rect.unit (s := S1x96) ![0, 0] S1x96.size inb_S1x96_S1x96_0_0

/-- The output window's staging buffer after the body, from the four input blocks: its one store. -/
def out3 (x0 x1 : Vec F S2000x96 .f32) (x2 : Vec F S96x96 .f32) (x3 : Vec F S1x96 .f32) : Vec F S2000x96 .f32 :=
  View.canon [⟨rh3, k3_pay1 (View.ld x0 rh3) (View.ld x1 rh3) (View.ld x2 rw3) (View.ld x3 rb3)⟩]

/-- The store covers the buffer. -/
theorem cover3 (p0 : Vec F S2000x96 .f32) (y : S2000x96.Idx) :
    ∃ pc ∈ ([⟨rh3, p0⟩] : List (View.Piece (Elt F) S2000x96 .f32)), y ∈ pc.1.set :=
  View.cover_of_tiled [⟨rh3, p0⟩] S2000x96.size (by rfl) y

set_option maxHeartbeats 1000000 in
/-- The body on whole staging memrefs, the inputs' at contents `x0 x1 x2 x3` and the output's at anything, runs to the
    continuation holding the inputs' as they were and the output's at `out3` of them. -/
theorem sound_kernel3 (c : Dev nD) (E : Set ℕ) (i : grid3.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3 x0 x1 x2 x3)) -∗ K ⟨⟩))
      ⊢ wp frame (wpE (defs₀ (F := F)) Variants.none c none) E (cc3__graph_layer_kernel i arg1 harg1 arg2 harg2 arg3 harg3 arg4 harg4 arg5 harg5) K := by
  simp only [cc3__graph_layer_kernel_eq_skeleton]; unfold cc3__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The pipeline's proof data on core `c`: the arrays as the region finds them; after the body at point `t` each
    input's buffer at its block and the output's at `out3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.R4.lean ====
/-
  Region 4 of @main (a linear layer, one grid axis over the node rows), at the buffer contents `V` the region is
  entered with: what each window's block is at a grid point, what the body leaves in the output's staging buffer
  (its one store, over the payload of the three loaded blocks), the body's triple, and the pipeline's proof data
  with its body obligation at every point.  The three input windows are only read; the weight and bias windows
  hold one block for the whole grid, so an unfetched point still finds its block in place.
-/
import proofs.«155949_j8452495638861_1_alg».proof.Proof.Gen.Kernel.Launch
import proofs.«155949_j8452495638861_1_alg».proof.Proof.Gen.Kernel.Skeleton
import proofs.«155949_j8452495638861_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rx4 : Rect S2000x384 := Rect.unit (s := S2000x384) ![0, 0] S2000x384.size inb_S2000x384_S2000x384_0_0
abbrev rw4 : Rect S384x128 := Rect.unit (s := S384x128) ![0, 0] S384x128.size inb_S384x128_S384x128_0_0
abbrev rb4 : Rect S1x128 := Rect.unit (s := S1x128) ![0, 0] S1x128.size inb_S1x128_S1x128_0_0
abbrev ro4 : Rect S2000x128 := Rect.unit (s := S2000x128) ![0, 0] S2000x128.size inb_S2000x128_S2000x128_0_0

/-- The output window's staging buffer after the body, from the three input blocks: its one store. -/
def out4 (x0 : Vec F S2000x384 .f32) (x1 : Vec F S384x128 .f32) (x2 : Vec F S1x128 .f32) : Vec F S2000x128 .f32 :=
  View.canon [⟨ro4, k4_pay1 (View.ld x0 rx4) (View.ld x1 rw4) (View.ld x2 rb4)⟩]

/-- The store covers the buffer. -/
theorem cover4 (p0 : Vec F S2000x128 .f32) (y : S2000x128.Idx) :
    ∃ pc ∈ ([⟨ro4, p0⟩] : List (View.Piece (Elt F) S2000x128 .f32)), y ∈ pc.1.set :=
  View.cover_of_tiled [⟨ro4, p0⟩] S2000x128.size (by rfl) y

set_option maxHeartbeats 1000000 in
/-- The body on whole staging memrefs, the inputs' at contents `x0 x1 x2` and the output's at anything, runs to the
    continuation holding the inputs' as they were and the output's at `out4` of them. -/
theorem sound_kernel4 (c : Dev nD) (E : Set ℕ) (i : grid4.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The pipeline's proof data on core `c`: the arrays as the region finds them; after the body at point `t` each
    input's buffer at its block and the output's at `out4` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.K.Run.lean ====
/-
  The kernel program's run, from the launch to the return: @main is five stretches of host operations, each followed
  by one of the five Pallas calls.  The buffer contents at each boundary are a fold from the launch memory `m`:
  a host stretch changes them by `StableHlo.after`, a call leaves its arrays at what its pipeline's write-backs
  fold to (`Dat.arrAt … N`: an input array as entered, the output array as the blocks written back) and every other
  buffer as entered.  Each call's proof data are taken at its entry contents; each host stretch and each call is a
  segment over the thread state "every unscoped buffer at the boundary's contents, the generator register at some
  state, nothing owed".  `run_all`: every weakly fair execution terminates, nothing faulting, and every final memory
  holds every unscoped buffer at the last boundary's contents `W10`.  From it: the arguments end as launched
  (`frame`), and the result buffer ends at the last call's folded write-backs (`run_result`).
-/
import proofs.«155949_j8452495638861_1_alg».proof.Proof.K.R0
import proofs.«155949_j8452495638861_1_alg».proof.Proof.K.R1
import proofs.«155949_j8452495638861_1_alg».proof.Proof.K.R2
import proofs.«155949_j8452495638861_1_alg».proof.Proof.K.R3
import proofs.«155949_j8452495638861_1_alg».proof.Proof.K.R4
import proofs.«155949_j8452495638861_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`: call 0's entry contents. -/
abbrev W1 : Dev nD → Valuation τ sig (Elt F) := fun c => StableHlo.after hostOps0 (W0 m ρ c)
/-- The same, read at the TensorCore's references (what call 0's proof data take). -/
abbrev V1 : (c : Dev nD) → (b : Ref sig .tc) → Buf (Elt F) ((c : Thread nD τ).loc b) := fun c b => W1 m ρ c b
/-- At call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (call 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves call 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A buffer no operation of `hostOps0` writes holds after the stretch what it held before. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the host stretch `hostOps1`: call 1's entry contents. -/
abbrev W3 : Dev nD → Valuation τ sig (Elt F) := fun c => StableHlo.after hostOps1 (W2 m ρ c)
/-- The same, read at the TensorCore's references (what call 1's proof data take). -/
abbrev V3 : (c : Dev nD) → (b : Ref sig .tc) → Buf (Elt F) ((c : Thread nD τ).loc b) := fun c b => W3 m ρ c b
/-- At call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (call 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves call 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- A buffer no operation of `hostOps1` writes holds after the stretch what it held before. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After the host stretch `hostOps2`: call 2's entry contents. -/
abbrev W5 : Dev nD → Valuation τ sig (Elt F) := fun c => StableHlo.after hostOps2 (W4 m ρ c)
/-- The same, read at the TensorCore's references (what call 2's proof data take). -/
abbrev V5 : (c : Dev nD) → (b : Ref sig .tc) → Buf (Elt F) ((c : Thread nD τ).loc b) := fun c b => W5 m ρ c b
/-- At call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (call 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves call 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- A buffer no operation of `hostOps2` writes holds after the stretch what it held before. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After the host stretch `hostOps3`: call 3's entry contents. -/
abbrev W7 : Dev nD → Valuation τ sig (Elt F) := fun c => StableHlo.after hostOps3 (W6 m ρ c)
/-- The same, read at the TensorCore's references (what call 3's proof data take). -/
abbrev V7 : (c : Dev nD) → (b : Ref sig .tc) → Buf (Elt F) ((c : Thread nD τ).loc b) := fun c b => W7 m ρ c b
/-- At call 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references (call 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves call 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- A buffer no operation of `hostOps3` writes holds after the stretch what it held before. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After the host stretch `hostOps4`: call 4's entry contents. -/
abbrev W9 : Dev nD → Valuation τ sig (Elt F) := fun c => StableHlo.after hostOps4 (W8 m ρ c)
/-- The same, read at the TensorCore's references (what call 4's proof data take). -/
abbrev V9 : (c : Dev nD) → (b : Ref sig .tc) → Buf (Elt F) ((c : Thread nD τ).loc b) := fun c b => W9 m ρ c b
/-- At call 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references (call 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves call 4 as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))
/-- A buffer no operation of `hostOps4` writes holds after the stretch what it held before. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The arguments end as launched: no host operation writes one, and a call reads one through an input window or not at all -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

/-! ## The proof data family and the thread state -/

/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The calls as segments -/

set_option backward.isDefEq.respectTransparency.types false in
/-- Call 0 over the thread state: entered from every unscoped buffer at `W1`, left at `W2`.  Its arrays are split
    out of the unscoped buffers and put back at the exit contents; the generator register goes into the pipeline's
    invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`.  Its arrays are split
    out of the unscoped buffers and put back at the exit contents; the generator register goes into the pipeline's
    invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`.  Its arrays are split
    out of the unscoped buffers and put back at the exit contents; the generator register goes into the pipeline's
    invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`.  Its arrays are split
    out of the unscoped buffers and put back at the exit contents; the generator register goes into the pipeline's
    invariant and out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped buffer at `W9`, left at `W10`.  Its arrays are split
    out of the unscoped buffers and put back at the exit contents; the generator register goes into the pipeline's
    invariant and out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c)⟩)
    (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v61 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c)⟩)
    (run_all m ρ)

end Cert.Kernel.Frm

end
-- ==== Proof.KI.R0.lean ====
/-
  Region 0 of @main (a linear layer, one grid axis over the node rows), at the buffer contents `V` the region is
  entered with: what each window's block is at a grid point, what the body leaves in the output's staging buffer
  (its one store, over the payload of the three loaded blocks), the body's triple, and the pipeline's proof data
  with its body obligation at every point.  The three input windows are only read; the weight and bias windows
  hold one block for the whole grid, so an unfetched point still finds its block in place.
-/
import proofs.«155949_j8452495638861_1_alg».proof.Proof.Gen.KernelIdeal.Launch
import proofs.«155949_j8452495638861_1_alg».proof.Proof.Gen.KernelIdeal.Skeleton
import proofs.«155949_j8452495638861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2000x128 := Rect.unit (s := S2000x128) ![0, 0] S2000x128.size inb_S2000x128_S2000x128_0_0
abbrev rw0 : Rect S128x96 := Rect.unit (s := S128x96) ![0, 0] S128x96.size inb_S128x96_S128x96_0_0
abbrev rb0 : Rect S1x96 := Rect.unit (s := S1x96) ![0, 0] S1x96.size inb_S1x96_S1x96_0_0
abbrev ro0 : Rect S2000x96 := Rect.unit (s := S2000x96) ![0, 0] S2000x96.size inb_S2000x96_S2000x96_0_0

/-- The output window's staging buffer after the body, from the three input blocks: its one store. -/
def out0 (x0 : Vec F S2000x128 .f32) (x1 : Vec F S128x96 .f32) (x2 : Vec F S1x96 .f32) : Vec F S2000x96 .f32 :=
  View.canon [⟨ro0, k0_pay1 (View.ld x0 rx0) (View.ld x1 rw0) (View.ld x2 rb0)⟩]

/-- The store covers the buffer. -/
theorem cover0 (p0 : Vec F S2000x96 .f32) (y : S2000x96.Idx) :
    ∃ pc ∈ ([⟨ro0, p0⟩] : List (View.Piece (Elt F) S2000x96 .f32)), y ∈ pc.1.set :=
  View.cover_of_tiled [⟨ro0, p0⟩] S2000x96.size (by rfl) y

set_option maxHeartbeats 1000000 in
/-- The body on whole staging memrefs, the inputs' at contents `x0 x1 x2` and the output's at anything, runs to the
    continuation holding the inputs' as they were and the output's at `out0` of them. -/
theorem sound_kernel0 (c : Dev nD) (E : Set ℕ) (i : grid0.Coords)
    (arg1 : Memref sig .tc .vmem S2000x128 .f32) (harg1 : arg1.IsWhole) (arg2 : Memref sig .tc .vmem S128x96 .f32) (harg2 : arg2.IsWhole)
    (arg3 : Memref sig .tc .vmem S1x96 .f32) (harg3 : arg3.IsWhole) (arg4 : Memref sig .tc .vmem S2000x96 .f32) (harg4 : arg4.IsWhole)
    (x0 : Vec F S2000x128 .f32) (x1 : Vec F S128x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data on core `c`: the arrays as the region finds them; after the body at point `t` each
    input's buffer at its block and the output's at `out0` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
/-
  Region 1 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.KernelIdeal.Launch
import proofs.«155949_j8452495638861_1_alg».proof.Proof.Gen.KernelIdeal.Skeleton
import proofs.«155949_j8452495638861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rh1 : Rect S2000x96 := Rect.unit (s := S2000x96) ![0, 0] S2000x96.size inb_S2000x96_S2000x96_0_0
abbrev rw1 : Rect S96x96 := Rect.unit (s := S96x96) ![0, 0] S96x96.size inb_S96x96_S96x96_0_0
abbrev rb1 : Rect S1x96 := Rect.unit (s := S1x96) ![0, 0] S1x96.size inb_S1x96_S1x96_0_0

/-- The output window's staging buffer after the body, from the four input blocks: its one store. -/
def out1 (x0 x1 : Vec F S2000x96 .f32) (x2 : Vec F S96x96 .f32) (x3 : Vec F S1x96 .f32) : Vec F S2000x96 .f32 :=
  View.canon [⟨rh1, k1_pay1 (View.ld x0 rh1) (View.ld x1 rh1) (View.ld x2 rw1) (View.ld x3 rb1)⟩]

/-- The store covers the buffer. -/
theorem cover1 (p0 : Vec F S2000x96 .f32) (y : S2000x96.Idx) :
    ∃ pc ∈ ([⟨rh1, p0⟩] : List (View.Piece (Elt F) S2000x96 .f32)), y ∈ pc.1.set :=
  View.cover_of_tiled [⟨rh1, p0⟩] S2000x96.size (by rfl) y

set_option maxHeartbeats 1000000 in
/-- The body on whole staging memrefs, the inputs' at contents `x0 x1 x2 x3` and the output's at anything, runs to the
    continuation holding the inputs' as they were and the output's at `out1` of them. -/
theorem sound_kernel1 (c : Dev nD) (E : Set ℕ) (i : grid1.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__graph_layer_kernel i arg1 harg1 arg2 harg2 arg3 harg3 arg4 harg4 arg5 harg5) K := by
  simp only [cc1__graph_layer_kernel_eq_skeleton]; unfold cc1__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The pipeline's proof data on core `c`: the arrays as the region finds them; after the body at point `t` each
    input's buffer at its block and the output's at `out1` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
/-
  Region 2 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.KernelIdeal.Launch
import proofs.«155949_j8452495638861_1_alg».proof.Proof.Gen.KernelIdeal.Skeleton
import proofs.«155949_j8452495638861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rh2 : Rect S2000x96 := Rect.unit (s := S2000x96) ![0, 0] S2000x96.size inb_S2000x96_S2000x96_0_0
abbrev rw2 : Rect S96x96 := Rect.unit (s := S96x96) ![0, 0] S96x96.size inb_S96x96_S96x96_0_0
abbrev rb2 : Rect S1x96 := Rect.unit (s := S1x96) ![0, 0] S1x96.size inb_S1x96_S1x96_0_0

/-- The output window's staging buffer after the body, from the four input blocks: its one store. -/
def out2 (x0 x1 : Vec F S2000x96 .f32) (x2 : Vec F S96x96 .f32) (x3 : Vec F S1x96 .f32) : Vec F S2000x96 .f32 :=
  View.canon [⟨rh2, k2_pay1 (View.ld x0 rh2) (View.ld x1 rh2) (View.ld x2 rw2) (View.ld x3 rb2)⟩]

/-- The store covers the buffer. -/
theorem cover2 (p0 : Vec F S2000x96 .f32) (y : S2000x96.Idx) :
    ∃ pc ∈ ([⟨rh2, p0⟩] : List (View.Piece (Elt F) S2000x96 .f32)), y ∈ pc.1.set :=
  View.cover_of_tiled [⟨rh2, p0⟩] S2000x96.size (by rfl) y

set_option maxHeartbeats 1000000 in
/-- The body on whole staging memrefs, the inputs' at contents `x0 x1 x2 x3` and the output's at anything, runs to the
    continuation holding the inputs' as they were and the output's at `out2` of them. -/
theorem sound_kernel2 (c : Dev nD) (E : Set ℕ) (i : grid2.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2 x0 x1 x2 x3)) -∗ K ⟨⟩))
      ⊢ wp frame (wpE (defs₀ (F := F)) Variants.none c none) E (cc2__graph_layer_kernel i arg1 harg1 arg2 harg2 arg3 harg3 arg4 harg4 arg5 harg5) K := by
  simp only [cc2__graph_layer_kernel_eq_skeleton]; unfold cc2__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-- The pipeline's proof data on core `c`: the arrays as the region finds them; after the body at point `t` each
    input's buffer at its block and the output's at `out2` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
/-
  Region 3 of @main (a graph layer, one grid axis over the node rows), at the buffer contents `V` the region is
  entered with: what each window's block is at a grid point, what the body leaves in the output's staging buffer
  (its one store, over the payload of the four loaded blocks: the state's and the neighbour sum's row blocks, the
  weight and the bias row), the body's triple, and the pipeline's proof data with its body obligation at every point.
  The four input windows are only read; the weight and bias windows hold one block for the whole grid, so an
  unfetched point still finds its block in place.
-/
import proofs.«155949_j8452495638861_1_alg».proof.Proof.Gen.KernelIdeal.Launch
import proofs.«155949_j8452495638861_1_alg».proof.Proof.Gen.KernelIdeal.Skeleton
import proofs.«155949_j8452495638861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rh3 : Rect S2000x96 := Rect.unit (s := S2000x96) ![0, 0] S2000x96.size inb_S2000x96_S2000x96_0_0
abbrev rw3 : Rect S96x96 := Rect.unit (s := S96x96) ![0, 0] S96x96.size inb_S96x96_S96x96_0_0
abbrev rb3 : Rect S1x96 := Rect.unit (s := S1x96) ![0, 0] S1x96.size inb_S1x96_S1x96_0_0

/-- The output window's staging buffer after the body, from the four input blocks: its one store. -/
def out3 (x0 x1 : Vec F S2000x96 .f32) (x2 : Vec F S96x96 .f32) (x3 : Vec F S1x96 .f32) : Vec F S2000x96 .f32 :=
  View.canon [⟨rh3, k3_pay1 (View.ld x0 rh3) (View.ld x1 rh3) (View.ld x2 rw3) (View.ld x3 rb3)⟩]

/-- The store covers the buffer. -/
theorem cover3 (p0 : Vec F S2000x96 .f32) (y : S2000x96.Idx) :
    ∃ pc ∈ ([⟨rh3, p0⟩] : List (View.Piece (Elt F) S2000x96 .f32)), y ∈ pc.1.set :=
  View.cover_of_tiled [⟨rh3, p0⟩] S2000x96.size (by rfl) y

set_option maxHeartbeats 1000000 in
/-- The body on whole staging memrefs, the inputs' at contents `x0 x1 x2 x3` and the output's at anything, runs to the
    continuation holding the inputs' as they were and the output's at `out3` of them. -/
theorem sound_kernel3 (c : Dev nD) (E : Set ℕ) (i : grid3.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S1x96 .f32) (harg4 : arg4.IsWhole)
    (arg5 : Memref sig .tc .vmem S2000x96 .f32) (harg5 : arg5.IsWhole)
    (x0 x1 : Vec F S2000x96 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3 x0 x1 x2 x3)) -∗ K ⟨⟩))
      ⊢ wp frame (wpE (defs₀ (F := F)) Variants.none c none) E (cc3__graph_layer_kernel i arg1 harg1 arg2 harg2 arg3 harg3 arg4 harg4 arg5 harg5) K := by
  simp only [cc3__graph_layer_kernel_eq_skeleton]; unfold cc3__graph_layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The pipeline's proof data on core `c`: the arrays as the region finds them; after the body at point `t` each
    input's buffer at its block and the output's at `out3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.R4.lean ====
/-
  Region 4 of @main (a linear layer, one grid axis over the node rows), at the buffer contents `V` the region is
  entered with: what each window's block is at a grid point, what the body leaves in the output's staging buffer
  (its one store, over the payload of the three loaded blocks), the body's triple, and the pipeline's proof data
  with its body obligation at every point.  The three input windows are only read; the weight and bias windows
  hold one block for the whole grid, so an unfetched point still finds its block in place.
-/
import proofs.«155949_j8452495638861_1_alg».proof.Proof.Gen.KernelIdeal.Launch
import proofs.«155949_j8452495638861_1_alg».proof.Proof.Gen.KernelIdeal.Skeleton
import proofs.«155949_j8452495638861_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rx4 : Rect S2000x384 := Rect.unit (s := S2000x384) ![0, 0] S2000x384.size inb_S2000x384_S2000x384_0_0
abbrev rw4 : Rect S384x128 := Rect.unit (s := S384x128) ![0, 0] S384x128.size inb_S384x128_S384x128_0_0
abbrev rb4 : Rect S1x128 := Rect.unit (s := S1x128) ![0, 0] S1x128.size inb_S1x128_S1x128_0_0
abbrev ro4 : Rect S2000x128 := Rect.unit (s := S2000x128) ![0, 0] S2000x128.size inb_S2000x128_S2000x128_0_0

/-- The output window's staging buffer after the body, from the three input blocks: its one store. -/
def out4 (x0 : Vec F S2000x384 .f32) (x1 : Vec F S384x128 .f32) (x2 : Vec F S1x128 .f32) : Vec F S2000x128 .f32 :=
  View.canon [⟨ro4, k4_pay1 (View.ld x0 rx4) (View.ld x1 rw4) (View.ld x2 rb4)⟩]

/-- The store covers the buffer. -/
theorem cover4 (p0 : Vec F S2000x128 .f32) (y : S2000x128.Idx) :
    ∃ pc ∈ ([⟨ro4, p0⟩] : List (View.Piece (Elt F) S2000x128 .f32)), y ∈ pc.1.set :=
  View.cover_of_tiled [⟨ro4, p0⟩] S2000x128.size (by rfl) y

set_option maxHeartbeats 1000000 in
/-- The body on whole staging memrefs, the inputs' at contents `x0 x1 x2` and the output's at anything, runs to the
    continuation holding the inputs' as they were and the output's at `out4` of them. -/
theorem sound_kernel4 (c : Dev nD) (E : Set ℕ) (i : grid4.Coords)
    (arg1 : Memref sig .tc .vmem S2000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The pipeline's proof data on core `c`: the arrays as the region finds them; after the body at point `t` each
    input's buffer at its block and the output's at `out4` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Run.lean ====
/-
  The kernel program's run, from the launch to the return: @main is five stretches of host operations, each followed
  by one of the five Pallas calls.  The buffer contents at each boundary are a fold from the launch memory `m`:
  a host stretch changes them by `StableHlo.after`, a call leaves its arrays at what its pipeline's write-backs
  fold to (`Dat.arrAt … N`: an input array as entered, the output array as the blocks written back) and every other
  buffer as entered.  Each call's proof data are taken at its entry contents; each host stretch and each call is a
  segment over the thread state "every unscoped buffer at the boundary's contents, the generator register at some
  state, nothing owed".  `run_all`: every weakly fair execution terminates, nothing faulting, and every final memory
  holds every unscoped buffer at the last boundary's contents `W10`.  From it: the arguments end as launched
  (`frame`), and the result buffer ends at the last call's folded write-backs (`run_result`).
-/
import proofs.«155949_j8452495638861_1_alg».proof.Proof.KI.R0
import proofs.«155949_j8452495638861_1_alg».proof.Proof.KI.R1
import proofs.«155949_j8452495638861_1_alg».proof.Proof.KI.R2
import proofs.«155949_j8452495638861_1_alg».proof.Proof.KI.R3
import proofs.«155949_j8452495638861_1_alg».proof.Proof.KI.R4
import proofs.«155949_j8452495638861_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`: call 0's entry contents. -/
abbrev W1 : Dev nD → Valuation τ sig (Elt F) := fun c => StableHlo.after hostOps0 (W0 m ρ c)
/-- The same, read at the TensorCore's references (what call 0's proof data take). -/
abbrev V1 : (c : Dev nD) → (b : Ref sig .tc) → Buf (Elt F) ((c : Thread nD τ).loc b) := fun c b => W1 m ρ c b
/-- At call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (call 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves call 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A buffer no operation of `hostOps0` writes holds after the stretch what it held before. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the host stretch `hostOps1`: call 1's entry contents. -/
abbrev W3 : Dev nD → Valuation τ sig (Elt F) := fun c => StableHlo.after hostOps1 (W2 m ρ c)
/-- The same, read at the TensorCore's references (what call 1's proof data take). -/
abbrev V3 : (c : Dev nD) → (b : Ref sig .tc) → Buf (Elt F) ((c : Thread nD τ).loc b) := fun c b => W3 m ρ c b
/-- At call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (call 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves call 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- A buffer no operation of `hostOps1` writes holds after the stretch what it held before. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After the host stretch `hostOps2`: call 2's entry contents. -/
abbrev W5 : Dev nD → Valuation τ sig (Elt F) := fun c => StableHlo.after hostOps2 (W4 m ρ c)
/-- The same, read at the TensorCore's references (what call 2's proof data take). -/
abbrev V5 : (c : Dev nD) → (b : Ref sig .tc) → Buf (Elt F) ((c : Thread nD τ).loc b) := fun c b => W5 m ρ c b
/-- At call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (call 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves call 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- A buffer no operation of `hostOps2` writes holds after the stretch what it held before. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After the host stretch `hostOps3`: call 3's entry contents. -/
abbrev W7 : Dev nD → Valuation τ sig (Elt F) := fun c => StableHlo.after hostOps3 (W6 m ρ c)
/-- The same, read at the TensorCore's references (what call 3's proof data take). -/
abbrev V7 : (c : Dev nD) → (b : Ref sig .tc) → Buf (Elt F) ((c : Thread nD τ).loc b) := fun c b => W7 m ρ c b
/-- At call 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references (call 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves call 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- A buffer no operation of `hostOps3` writes holds after the stretch what it held before. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After the host stretch `hostOps4`: call 4's entry contents. -/
abbrev W9 : Dev nD → Valuation τ sig (Elt F) := fun c => StableHlo.after hostOps4 (W8 m ρ c)
/-- The same, read at the TensorCore's references (what call 4's proof data take). -/
abbrev V9 : (c : Dev nD) → (b : Ref sig .tc) → Buf (Elt F) ((c : Thread nD τ).loc b) := fun c b => W9 m ρ c b
/-- At call 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references (call 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves call 4 as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))
/-- A buffer no operation of `hostOps4` writes holds after the stretch what it held before. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The arguments end as launched: no host operation writes one, and a call reads one through an input window or not at all -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

/-! ## The proof data family and the thread state -/

/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The calls as segments -/

set_option backward.isDefEq.respectTransparency.types false in
/-- Call 0 over the thread state: entered from every unscoped buffer at `W1`, left at `W2`.  Its arrays are split
    out of the unscoped buffers and put back at the exit contents; the generator register goes into the pipeline's
    invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`.  Its arrays are split
    out of the unscoped buffers and put back at the exit contents; the generator register goes into the pipeline's
    invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`.  Its arrays are split
    out of the unscoped buffers and put back at the exit contents; the generator register goes into the pipeline's
    invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`.  Its arrays are split
    out of the unscoped buffers and put back at the exit contents; the generator register goes into the pipeline's
    invariant and out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped buffer at `W9`, left at `W10`.  Its arrays are split
    out of the unscoped buffers and put back at the exit contents; the generator register goes into the pipeline's
    invariant and out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c)⟩)
    (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v61 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c)⟩)
    (run_all m ρ)

end Cert.KernelIdeal.Frm

end
-- ==== Proof.Pay.lean ====
import proofs.«155949_j8452495638861_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel bodies' arithmetic read at one index, at the ideal values

Each body computes a matrix product into a zero accumulator and adds a bias row broadcast over the
rows. At the ideal values the narrowing of the operands is the identity and the product is the plain
sum over the contracted axis, so entry `(p, q)` of each body is
`(∑ k, lhs (p, k) * rhs (k, q)) + bias (0, q)`; in the three middle bodies the left operand is the
entrywise sum of two blocks.
-/

noncomputable section

namespace Cert.KernelIdeal.Pay

open Cert.KernelIdeal Cert.KernelIdeal.Gen Idealize.ShloMosaic Idealize.ShloMosaic.ValueIdx
open scoped BigOperators

/-! ## The 2000×128 by 128×96 product -/

/-- On the left operand's row axis the operand index is the output's row. -/
theorem lhsA_0 (i : S2000x96.Idx) (q : dot_S2000x128_S128x96_S2000x96_1_0_0_1_n_n.contr.Idx) :
    (dot_S2000x128_S128x96_S2000x96_1_0_0_1_n_n.lhsIdx i q 0).val = (i 0).val := by
  unfold DotDims.lhsIdx
  rw [dif_neg (show ¬(0 : Fin S2000x128.rank) ∈ dot_S2000x128_S128x96_S2000x96_1_0_0_1_n_n.lhsBatch by decide), dif_pos (show (0 : Fin S2000x128.rank) ∈ dot_S2000x128_S128x96_S2000x96_1_0_0_1_n_n.lhsNonContracting by decide)]
  rfl
/-- On the left operand's column axis the operand index is the contraction coordinate. -/
theorem lhsA_1 (i : S2000x96.Idx) (q : dot_S2000x128_S128x96_S2000x96_1_0_0_1_n_n.contr.Idx) :
    (dot_S2000x128_S128x96_S2000x96_1_0_0_1_n_n.lhsIdx i q 1).val = (q ⟨0, by decide⟩).val :=
  dot_S2000x128_S128x96_S2000x96_1_0_0_1_n_n.lhsIdx_val_of_single rfl i q
/-- On the right operand's row axis the operand index is the contraction coordinate. -/
theorem rhsA_0 (i : S2000x96.Idx) (q : dot_S2000x128_S128x96_S2000x96_1_0_0_1_n_n.contr.Idx) :
    (dot_S2000x128_S128x96_S2000x96_1_0_0_1_n_n.rhsIdx i q 0).val = (q ⟨0, by decide⟩).val :=
  dot_S2000x128_S128x96_S2000x96_1_0_0_1_n_n.rhsIdx_val_of_single rfl i q
/-- On the right operand's column axis the operand index is the output's column. -/
theorem rhsA_1 (i : S2000x96.Idx) (q : dot_S2000x128_S128x96_S2000x96_1_0_0_1_n_n.contr.Idx) :
    (dot_S2000x128_S128x96_S2000x96_1_0_0_1_n_n.rhsIdx i q 1).val = (i 1).val := by
  unfold DotDims.rhsIdx
  rw [dif_neg (show ¬(1 : Fin S128x96.rank) ∈ dot_S2000x128_S128x96_S2000x96_1_0_0_1_n_n.rhsBatch by decide), dif_pos (show (1 : Fin S128x96.rank) ∈ dot_S2000x128_S128x96_S2000x96_1_0_0_1_n_n.rhsNonContracting by decide)]
  rfl

/-- The product into the zero accumulator, at entry `(p, q)`: the sum over the contracted axis. -/
theorem mmA (x : FVec Ideal S2000x128 .bf16) (w : FVec Ideal S128x96 .bf16) (p : Fin 2000) (q : Fin 96) :
    matmul dot_S2000x128_S128x96_S2000x96_1_0_0_1_n_n none x w (constant (F := Ideal) S2000x96 .f32 0x00000000#32) (ix2 p q)
      = ∑ k : Fin 128, x (ix2 p k) * w (ix2 k q) := by
  simp only [matmul]
  rw [Ideal.matmul_constant_zero_apply, ← Equiv.sum_comp (contrEquiv1 dot_S2000x128_S128x96_S2000x96_1_0_0_1_n_n 128 rfl rfl).symm]
  refine Finset.sum_congr rfl fun k _ => ?_
  have hk := contrEquiv1_symm_val dot_S2000x128_S128x96_S2000x96_1_0_0_1_n_n 128 rfl rfl k
  have el : dot_S2000x128_S128x96_S2000x96_1_0_0_1_n_n.lhsIdx (ix2 p q) ((contrEquiv1 dot_S2000x128_S128x96_S2000x96_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x96_S2000x96_1_0_0_1_n_n.rhsIdx (ix2 p q) ((contrEquiv1 dot_S2000x128_S128x96_S2000x96_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The 2000×96 by 96×96 product -/

/-- On the left operand's row axis the operand index is the output's row. -/
theorem lhsB_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- On the left operand's column axis the operand index is the contraction coordinate. -/
theorem lhsB_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- On the right operand's row axis the operand index is the contraction coordinate. -/
theorem rhsB_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- On the right operand's column axis the operand index is the output's column. -/
theorem rhsB_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The product into the zero accumulator, at entry `(p, q)`: the sum over the contracted axis. -/
theorem mmB (x : FVec Ideal S2000x96 .bf16) (w : FVec Ideal S96x96 .bf16) (p : Fin 2000) (q : Fin 96) :
    matmul dot_S2000x96_S96x96_S2000x96_1_0_0_1_n_n none x w (constant (F := Ideal) S2000x96 .f32 0x00000000#32) (ix2 p q)
      = ∑ k : Fin 96, x (ix2 p k) * w (ix2 k q) := by
  simp only [matmul]
  rw [Ideal.matmul_constant_zero_apply, ← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 p q) ((contrEquiv1 dot_S2000x96_S96x96_S2000x96_1_0_0_1_n_n 96 rfl rfl).symm k) = ix2 p k := funext fun a => Fin.ext (by
    match a with
    | ⟨0, _⟩ => exact lhsB_0 _ _
    | ⟨1, _⟩ => exact (lhsB_1 _ _).trans hk)
  have er : dot_S2000x96_S96x96_S2000x96_1_0_0_1_n_n.rhsIdx (ix2 p q) ((contrEquiv1 dot_S2000x96_S96x96_S2000x96_1_0_0_1_n_n 96 rfl rfl).symm k) = ix2 k q := funext fun a => Fin.ext (by
    match a with
    | ⟨0, _⟩ => exact (rhsB_0 _ _).trans hk
    | ⟨1, _⟩ => exact rhsB_1 _ _)
  rw [el, er]

/-! ## The 2000×384 by 384×128 product -/

/-- On the left operand's row axis the operand index is the output's row. -/
theorem lhsC_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
/-- On the left operand's column axis the operand index is the contraction coordinate. -/
theorem lhsC_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
/-- On the right operand's row axis the operand index is the contraction coordinate. -/
theorem rhsC_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
/-- On the right operand's column axis the operand index is the output's column. -/
theorem rhsC_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The product into the zero accumulator, at entry `(p, q)`: the sum over the contracted axis. -/
theorem mmC (x : FVec Ideal S2000x384 .bf16) (w : FVec Ideal S384x128 .bf16) (p : Fin 2000) (q : Fin 128) :
    matmul dot_S2000x384_S384x128_S2000x128_1_0_0_1_n_n none x w (constant (F := Ideal) S2000x128 .f32 0x00000000#32) (ix2 p q)
      = ∑ k : Fin 384, x (ix2 p k) * w (ix2 k q) := by
  simp only [matmul]
  rw [Ideal.matmul_constant_zero_apply, ← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 p q) ((contrEquiv1 dot_S2000x384_S384x128_S2000x128_1_0_0_1_n_n 384 rfl rfl).symm k) = ix2 p k := funext fun a => Fin.ext (by
    match a with
    | ⟨0, _⟩ => exact lhsC_0 _ _
    | ⟨1, _⟩ => exact (lhsC_1 _ _).trans hk)
  have er : dot_S2000x384_S384x128_S2000x128_1_0_0_1_n_n.rhsIdx (ix2 p q) ((contrEquiv1 dot_S2000x384_S384x128_S2000x128_1_0_0_1_n_n 384 rfl rfl).symm k) = ix2 k q := funext fun a => Fin.ext (by
    match a with
    | ⟨0, _⟩ => exact (rhsC_0 _ _).trans hk
    | ⟨1, _⟩ => exact rhsC_1 _ _)
  rw [el, er]

/-! ## The five bodies -/

/-- Entry `(p, q)` of the first body: the product's sum plus the bias at column `q`. -/
theorem pay0 (x : Vec Ideal S2000x128 .f32) (w : Vec Ideal S128x96 .f32) (b : Vec Ideal S1x96 .f32) (p : Fin 2000) (q : Fin 96) :
    k0_pay1 (F := Ideal) x w b (ix2 p q) = (∑ k : Fin 128, x (ix2 p k) * w (ix2 k q)) + b (ix2 0 q) := by
  unfold k0_pay1
  rw [addf_apply, mmA, shapeCast_self, shapeCast_self, broadcastTo_1b_ab_apply]
  rfl

/-- Entry `(p, q)` of the second body: the product of the two blocks' entrywise sum with the weights, plus the bias at column `q`. -/
theorem pay1 (h a : Vec Ideal S2000x96 .f32) (w : Vec Ideal S96x96 .f32) (b : Vec Ideal S1x96 .f32) (p : Fin 2000) (q : Fin 96) :
    k1_pay1 (F := Ideal) h a w b (ix2 p q) = (∑ k : Fin 96, (h (ix2 p k) + a (ix2 p k)) * w (ix2 k q)) + b (ix2 0 q) := by
  unfold k1_pay1
  rw [addf_apply, mmB, shapeCast_self, shapeCast_self, shapeCast_self, shapeCast_self, broadcastTo_1b_ab_apply]
  rfl

/-- Entry `(p, q)` of the third body: the product of the two blocks' entrywise sum with the weights, plus the bias at column `q`. -/
theorem pay2 (h a : Vec Ideal S2000x96 .f32) (w : Vec Ideal S96x96 .f32) (b : Vec Ideal S1x96 .f32) (p : Fin 2000) (q : Fin 96) :
    k2_pay1 (F := Ideal) h a w b (ix2 p q) = (∑ k : Fin 96, (h (ix2 p k) + a (ix2 p k)) * w (ix2 k q)) + b (ix2 0 q) := by
  unfold k2_pay1
  rw [addf_apply, mmB, shapeCast_self, shapeCast_self, shapeCast_self, shapeCast_self, broadcastTo_1b_ab_apply]
  rfl

/-- Entry `(p, q)` of the fourth body: the product of the two blocks' entrywise sum with the weights, plus the bias at column `q`. -/
theorem pay3 (h a : Vec Ideal S2000x96 .f32) (w : Vec Ideal S96x96 .f32) (b : Vec Ideal S1x96 .f32) (p : Fin 2000) (q : Fin 96) :
    k3_pay1 (F := Ideal) h a w b (ix2 p q) = (∑ k : Fin 96, (h (ix2 p k) + a (ix2 p k)) * w (ix2 k q)) + b (ix2 0 q) := by
  unfold k3_pay1
  rw [addf_apply, mmB, shapeCast_self, shapeCast_self, shapeCast_self, shapeCast_self, broadcastTo_1b_ab_apply]
  rfl

/-- Entry `(p, q)` of the last body: the product's sum plus the bias at column `q`. -/
theorem pay4 (x : Vec Ideal S2000x384 .f32) (w : Vec Ideal S384x128 .f32) (b : Vec Ideal S1x128 .f32) (p : Fin 2000) (q : Fin 128) :
    k4_pay1 (F := Ideal) x w b (ix2 p q) = (∑ k : Fin 384, x (ix2 p k) * w (ix2 k q)) + b (ix2 0 q) := by
  unfold k4_pay1
  rw [addf_apply, mmC, shapeCast_self, shapeCast_self, shapeCast_self, broadcastTo_1b_ab_apply]
  rfl

end Cert.KernelIdeal.Pay

end
-- ==== Proof.Spec.lean ====
/-
  The layer this network repeats, as ONE function of whole arrays, index by index over literal shapes.

  Every Pallas call of the kernel and every `dot_general + broadcast + add` of the reference computes
  `lin x w b`: entry (i, j) is the sum over k of x[i,k] * w[k,j], plus the bias row's entry b[0,j]; the graph
  layers apply it to `h + agg`.  On the extended reals this needs only that + and * are the commutative
  monoid operations: no distributivity, so no finiteness of the inputs is used.
-/
import Idealize.ShloMosaic.PureOps.Ideal
import Idealize.ShloMosaic.Lib.ValueIdx

noncomputable section

open scoped BigOperators

namespace Cert.Spec

open Idealize.ShloMosaic Idealize.ShloMosaic.ValueIdx

/-- `x * w + b` for x : [50000, 128], w : [128, 96], b : [1, 96] (the input projection). -/
def linIn (x : FVec Ideal (⟨2, ![50000, 128]⟩ : Shape) .f32) (w : FVec Ideal (⟨2, ![128, 96]⟩ : Shape) .f32)
    (b : FVec Ideal (⟨2, ![1, 96]⟩ : Shape) .f32) : FVec Ideal (⟨2, ![50000, 96]⟩ : Shape) .f32 :=
  fun i => (∑ k : Fin 128, x (ix2 (i 0) k) * w (ix2 k (i 1))) + b (ix2 0 (i 1))

/-- `(h + a) * w + b` for h, a : [50000, 96], w : [96, 96], b : [1, 96] (one graph layer: a is the neighbour sum). -/
def linHid (h a : FVec Ideal (⟨2, ![50000, 96]⟩ : Shape) .f32) (w : FVec Ideal (⟨2, ![96, 96]⟩ : Shape) .f32)
    (b : FVec Ideal (⟨2, ![1, 96]⟩ : Shape) .f32) : FVec Ideal (⟨2, ![50000, 96]⟩ : Shape) .f32 :=
  fun i => (∑ k : Fin 96, (h (ix2 (i 0) k) + a (ix2 (i 0) k)) * w (ix2 k (i 1))) + b (ix2 0 (i 1))

/-- `x * w + b` for x : [50000, 384], w : [384, 128], b : [1, 128] (the output projection of the concatenated states). -/
def linOut (x : FVec Ideal (⟨2, ![50000, 384]⟩ : Shape) .f32) (w : FVec Ideal (⟨2, ![384, 128]⟩ : Shape) .f32)
    (b : FVec Ideal (⟨2, ![1, 128]⟩ : Shape) .f32) : FVec Ideal (⟨2, ![50000, 128]⟩ : Shape) .f32 :=
  fun i => (∑ k : Fin 384, x (ix2 (i 0) k) * w (ix2 k (i 1))) + b (ix2 0 (i 1))

theorem linIn_apply (x : FVec Ideal (⟨2, ![50000, 128]⟩ : Shape) .f32) (w : FVec Ideal (⟨2, ![128, 96]⟩ : Shape) .f32)
    (b : FVec Ideal (⟨2, ![1, 96]⟩ : Shape) .f32) (p : Fin 50000) (q : Fin 96) :
    linIn x w b (ix2 p q) = (∑ k : Fin 128, x (ix2 p k) * w (ix2 k q)) + b (ix2 0 q) := rfl

theorem linHid_apply (h a : FVec Ideal (⟨2, ![50000, 96]⟩ : Shape) .f32) (w : FVec Ideal (⟨2, ![96, 96]⟩ : Shape) .f32)
    (b : FVec Ideal (⟨2, ![1, 96]⟩ : Shape) .f32) (p : Fin 50000) (q : Fin 96) :
    linHid h a w b (ix2 p q) = (∑ k : Fin 96, (h (ix2 p k) + a (ix2 p k)) * w (ix2 k q)) + b (ix2 0 q) := rfl

theorem linOut_apply (x : FVec Ideal (⟨2, ![50000, 384]⟩ : Shape) .f32) (w : FVec Ideal (⟨2, ![384, 128]⟩ : Shape) .f32)
    (b : FVec Ideal (⟨2, ![1, 128]⟩ : Shape) .f32) (p : Fin 50000) (q : Fin 128) :
    linOut x w b (ix2 p q) = (∑ k : Fin 384, x (ix2 p k) * w (ix2 k q)) + b (ix2 0 q) := rfl

end Cert.Spec

end
-- ==== Proof.KI.Val0.lean ====
/-
  Region 0 of @main, from blocks to the array.  The region runs its body at 25 grid points; point `t` reads row block
  `t` (2000 rows) of the left operand and the whole weight and bias arrays, and writes back row block `t` of the
  result.  Each written block is the matching row block of the layer `x * w + b` applied to the operand arrays as
  the region finds them, and the 25 row blocks tile the result's 50000 rows, so after the region the result array
  is that layer of the operand arrays, whatever the arrays held.
-/
import proofs.«155949_j8452495638861_1_alg».proof.Proof.KI.R0
import proofs.«155949_j8452495638861_1_alg».proof.Proof.Pay
import proofs.«155949_j8452495638861_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The printed index maps, decided once over the grid -/

/-- The whole-block rectangles sit at zero offsets. -/
theorem zeroOffsets0 : (![0, 0] : Fin 2 → Nat) = fun _ => 0 := funext fun a => by fin_cases a <;> rfl

/-- At grid point `t` the row-blocked windows (the left operand and the result) are at row block `t`, column block
    zero; the weight and bias windows are at block zero on both axes. -/
theorem blockIdx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Every row block of the result is some point's. -/
theorem rowBlock_onto0 : ∀ r : Fin 25, ∃ t : Fin cfg0.N, win0_3.index t = ![r.val, 0] :=
  (by decide +kernel : ∀ r : Fin 25, ∃ t : Fin grid0.N, win0_3.index t = ![r.val, 0])

/-! ## One entry of a row block -/

/-- Row `p` of row block `t`, as a row of the whole array. -/
def rowOf0 (t : Fin cfg0.N) (p : Fin 2000) : Fin 50000 :=
  ⟨t.val * 2000 + p.val, by have ht : t.val < 25 := N_0 ▸ t.isLt; have hp := p.isLt; omega⟩

/-- One entry of a row block's payload is the layer's entry at the block's row in the array, when the blocks the
    payload reads agree there with the arrays: the left block's row `p` with the array's row `r`, the weight and
    bias blocks with their whole arrays. -/
theorem entry0_of_blocks (X : FVec Ideal S50000x128 .f32) (W : FVec Ideal S128x96 .f32) (B : FVec Ideal S1x96 .f32)
    (x : Vec Ideal S2000x128 .f32) (w : Vec Ideal S128x96 .f32) (b : Vec Ideal S1x96 .f32)
    (r : Fin 50000) (p : Fin 2000) (q : Fin 96)
    (hx : ∀ k : Fin 128, x (ix2 p k) = X (ix2 r k)) (hw : ∀ k : Fin 128, w (ix2 k q) = W (ix2 k q))
    (hb : b (ix2 0 q) = B (ix2 0 q)) :
    k0_pay1 (F := Ideal) x w b (ix2 p q) = Cert.Spec.linIn X W B (ix2 r q) := by
  rw [Pay.pay0, Cert.Spec.linIn_apply, hb]
  exact congrArg (· + B (ix2 0 q)) (Finset.sum_congr rfl fun k _ => by rw [hx k, hw k])

variable (V : (c : Dev nD) → (b : Ref sig .tc) → Buf (Elt Ideal) ((c : Thread nD τ).loc b))

/-! ## What a point writes back -/

set_option maxHeartbeats 1600000 in
/-- What point `t` writes back is row block `t` of the layer applied to the operand arrays as the region finds them:
    an element of a block sits in its array, on each axis, at the block index times the block's size plus its own
    coordinate, so the left block's rows are the array's rows `t * 2000 + p` and the weight and bias blocks are
    their arrays. -/
theorem flushed0_eq (c : Dev nD) (t : Fin cfg0.N) :
    (dat0 (F := Ideal) V c).flushed 3 t = ((cfg0.win 3).blk t).view.read (Elt Ideal)
      (Cert.Spec.linIn (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0
  rw [View.canon_unit_zero zeroOffsets0]
  simp only [View.ld_unit_zero (S := S2000x128) zeroOffsets0, View.ld_unit_zero (S := S128x96) zeroOffsets0,
    View.ld_unit_zero (S := S1x96) zeroOffsets0]
  obtain ⟨hxr, hxc, hwr, hwc, hbr, hbc, hor, hoc⟩ := blockIdx0 t
  funext j
  obtain ⟨p, q, rfl⟩ : ∃ (p : Fin 2000) (q : Fin 96), j = ix2 p q := ⟨j 0, j 1, eq_ix2 j⟩
  show k0_pay1 (F := Ideal) (iblk0 V c 0 t) (iblk0 V c 1 t) (iblk0 V c 2 t) (ix2 p q)
    = Cert.Spec.linIn (V c (Pipeline.arrRef spec0 0)) (V c (Pipeline.arrRef spec0 1)) (V c (Pipeline.arrRef spec0 2))
        (((cfg0.win 3).blk t).view.emb (ix2 p q))
  have ho : ((cfg0.win 3).blk t).view.emb (ix2 p q) = ix2 (rowOf0 t p) q := by
    funext a; apply Fin.ext
    match a with
    | ⟨0, _⟩ => show win0_3.index t (0 : Fin 2) * 2000 + 1 * p.val = t.val * 2000 + p.val; omega
    | ⟨1, _⟩ => show win0_3.index t (1 : Fin 2) * 96 + 1 * q.val = q.val; omega
  refine (entry0_of_blocks (V c (Pipeline.arrRef spec0 0)) (V c (Pipeline.arrRef spec0 1)) (V c (Pipeline.arrRef spec0 2))
    (iblk0 V c 0 t) (iblk0 V c 1 t) (iblk0 V c 2 t) (rowOf0 t p) p q ?_ ?_ ?_).trans (congrArg _ ho.symm)
  · intro k
    show V c (Pipeline.arrRef spec0 0) (((cfg0.win 0).blk t).view.emb (ix2 p k)) = V c (Pipeline.arrRef spec0 0) (ix2 (rowOf0 t p) k)
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c (Pipeline.arrRef spec0 1) (((cfg0.win 1).blk t).view.emb (ix2 k q)) = V c (Pipeline.arrRef spec0 1) (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 96 + 1 * q.val = q.val; omega
  · show V c (Pipeline.arrRef spec0 2) (((cfg0.win 2).blk t).view.emb (ix2 0 q)) = V c (Pipeline.arrRef spec0 2) (ix2 0 q)
    refine congrArg _ ?_
    funext a; apply Fin.ext
    match a with
    | ⟨0, _⟩ => show win0_2.index t (0 : Fin 2) * 1 + 1 * (0 : Fin 1).val = (0 : Fin 1).val; omega
    | ⟨1, _⟩ => show win0_2.index t (1 : Fin 2) * 96 + 1 * q.val = q.val; omega

/-! ## The row blocks tile the array -/

/-- An index of the result array is in point `t`'s block iff each coordinate is in the block's range on its axis. -/
theorem mem_rowBlock0 (t : Fin cfg0.N) (i : S50000x96.Idx) :
    i ∈ ((cfg0.win 3).blk t).view.set ↔ ∀ a : Fin 2, win0_3.index t a * S2000x96.size a ≤ (i a).val
      ∧ (i a).val < win0_3.index t a * S2000x96.size a + S2000x96.size a := by
  show i ∈ ((View.whole (Pipeline.arrRef spec0 3)).slice (win0_3.rect t)).set ↔ _
  rw [View.set_slice_whole, Rect.mem_set_unit]
  exact Iff.rfl

/-- Every index of the result array is in the block of a point that writes back: row `r` is in row block `r / 2000`. -/
theorem rowBlocks_cover0 (i : S50000x96.Idx) :
    ∃ t : Fin cfg0.N, (cfg0.win 3).flush t = true ∧ i ∈ ((cfg0.win 3).blk t).view.set := by
  have hr : (i 0).val < 50000 := (i 0).isLt
  have hc : (i 1).val < 96 := (i 1).isLt
  obtain ⟨t, ht⟩ := rowBlock_onto0 ⟨(i 0).val / 2000, by omega⟩
  have hrow : win0_3.index t (0 : Fin 2) = (i 0).val / 2000 := congrFun ht 0
  have hcol : win0_3.index t (1 : Fin 2) = 0 := congrFun ht 1
  refine ⟨t, flush0_3 t, ?_⟩
  rw [mem_rowBlock0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 96 ≤ (i 1).val ∧ (i 1).val < win0_3.index t (1 : Fin 2) * 96 + 96; omega

/-! ## The array after the region -/

/-- After the region the result array is the layer applied to the operand arrays as the region finds them. -/
theorem final0 (c : Dev nD) :
    (dat0 (F := Ideal) V c).arrAt 3 cfg0.N
      = Cert.Spec.linIn (V c (Pipeline.arrRef spec0 0)) (V c (Pipeline.arrRef spec0 1)) (V c (Pipeline.arrRef spec0 2)) :=
  (dat0 (F := Ideal) V c).arrAt_eq_of_cover 3
    (Cert.Spec.linIn (V c (Pipeline.arrRef spec0 0)) (V c (Pipeline.arrRef spec0 1)) (V c (Pipeline.arrRef spec0 2)))
    (fun t _ => flushed0_eq V c t) rowBlocks_cover0

end Cert.KernelIdeal.Frm

end
-- ==== Proof.KI.Val1.lean ====
/-
  Region 1 of @main (a graph layer over the node rows), from blocks to the array: at the buffer contents `V` the
  region is entered with, the result array after the region is, as a whole, the layer's function of the four operand
  arrays: entry (r, q) is the sum over k of (state (r, k) + neighbour sum (r, k)) * weight (k, q), plus bias (0, q).
  Grid point `t` of the 25 handles rows 2000 t … 2000 t + 1999: it reads those rows of the state and of the neighbour
  sum and the whole weight and bias row, and writes those rows of the result. Each written row block is that block of
  the layer's function (the body's payload at one entry, with every block read identified with an array read), and
  the 25 row blocks cover the 50000 rows.
-/
import proofs.«155949_j8452495638861_1_alg».proof.Proof.KI.R1
import proofs.«155949_j8452495638861_1_alg».proof.Proof.Pay
import proofs.«155949_j8452495638861_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a whole-block rectangle, as the constant function. -/
theorem zero_offs1 : (![0, 0] : Fin 2 → Nat) = fun _ => 0 := funext fun a => by fin_cases a <;> rfl

/-- The index maps over the 25 points: the three row-blocked windows (state, neighbour sum, result) sit at row block
    `t`, column block 0; the weight and the bias row are one block at (0, 0). -/
theorem blocks_at1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the body's payload is entry (r, q) of the layer's function of the arrays, once row `p` of the two
    row blocks is row `r` of their arrays and the weight's column `q` and the bias's entry `q` are the arrays'. -/
theorem entry_eq1 (H A : FVec Ideal (⟨2, ![50000, 96]⟩ : Shape) .f32) (W : FVec Ideal (⟨2, ![96, 96]⟩ : Shape) .f32)
    (B : FVec Ideal (⟨2, ![1, 96]⟩ : Shape) .f32)
    (h a : Vec Ideal S2000x96 .f32) (w : Vec Ideal S96x96 .f32) (b : Vec Ideal S1x96 .f32)
    (r : Fin 50000) (p : Fin 2000) (q : Fin 96)
    (hh : ∀ k : Fin 96, h (ix2 p k) = H (ix2 r k)) (ha : ∀ k : Fin 96, a (ix2 p k) = A (ix2 r k))
    (hw : ∀ k : Fin 96, w (ix2 k q) = W (ix2 k q)) (hb : b (ix2 0 q) = B (ix2 0 q)) :
    k1_pay1 (F := Ideal) h a w b (ix2 p q) = Cert.Spec.linHid H A W B (ix2 r q) := by
  rw [Pay.pay1, Cert.Spec.linHid_apply, hb]
  congr 1
  exact Finset.sum_congr rfl fun k _ => by rw [hh, ha, hw]

variable (V : (c : Dev nD) → (b : Ref sig .tc) → Buf (Elt Ideal) ((c : Thread nD τ).loc b))

set_option maxHeartbeats 1600000 in
/-- What point `t` writes back is row block `t` of the layer's function of the four operand arrays. -/
theorem flushed1_eq (c : Dev nD) (t : Fin cfg1.N) :
    (dat1 (F := Ideal) V c).flushed 4 t = ((cfg1.win 4).blk t).view.read (Elt Ideal)
      (Cert.Spec.linHid (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1
  rw [View.canon_unit_zero zero_offs1]
  simp only [View.ld_unit_zero (S := S2000x96) zero_offs1, View.ld_unit_zero (S := S96x96) zero_offs1, View.ld_unit_zero (S := S1x96) zero_offs1]
  funext j
  obtain ⟨p, q, rfl⟩ : ∃ (p : Fin 2000) (q : Fin 96), j = ix2 p q := ⟨j 0, j 1, eq_ix2 (n0 := 2000) (n1 := 96) j⟩
  obtain ⟨sR, sC, aR, aC, wR, wC, bR, bC, oR, oC⟩ := blocks_at1 t
  have ht : t.val < 25 := lt_of_lt_of_eq t.isLt N_1
  show k1_pay1 (F := Ideal) (iblk1 V c 0 t) (iblk1 V c 1 t) (iblk1 V c 2 t) (iblk1 V c 3 t) (ix2 p q)
      = Cert.Spec.linHid (V c (Pipeline.arrRef spec1 0)) (V c (Pipeline.arrRef spec1 1)) (V c (Pipeline.arrRef spec1 2)) (V c (Pipeline.arrRef spec1 3))
          (((cfg1.win 4).blk t).view.emb (ix2 p q))
  -- the result block's entry (p, q) is the array's entry (2000 t + p, q)
  have er : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 96 + 1 * q.val = q.val; omega
  refine (entry_eq1 (V c (Pipeline.arrRef spec1 0)) (V c (Pipeline.arrRef spec1 1)) (V c (Pipeline.arrRef spec1 2)) (V c (Pipeline.arrRef spec1 3))
    _ _ _ _ ⟨t.val * 2000 + p.val, by omega⟩ p q (fun k => ?_) (fun k => ?_) (fun k => ?_) ?_).trans (congrArg _ er.symm)
  · -- the state's row block: its row p is the array's row 2000 t + p
    show V c (Pipeline.arrRef spec1 0) (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 96 + 1 * k.val = k.val; omega
  · -- the neighbour sum's row block, likewise
    show V c (Pipeline.arrRef spec1 1) (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 96 + 1 * k.val = k.val; omega
  · -- the weight's one block is its array
    show V c (Pipeline.arrRef spec1 2) (((cfg1.win 2).blk t).view.emb (ix2 k q)) = _
    refine congrArg _ (funext fun a => Fin.ext ?_)
    match a with
    | ⟨0, _⟩ => show win1_2.index t (0 : Fin 2) * 96 + 1 * k.val = k.val; omega
    | ⟨1, _⟩ => show win1_2.index t (1 : Fin 2) * 96 + 1 * q.val = q.val; omega
  · -- the bias row's one block is its array
    show V c (Pipeline.arrRef spec1 3) (((cfg1.win 3).blk t).view.emb (ix2 0 q)) = _
    refine congrArg _ (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 96 + 1 * q.val = q.val; omega

/-- An entry of the result array is in point `t`'s block iff each coordinate is in the block's range on its axis. -/
theorem mem_blk1 (t : Fin cfg1.N) (i : S50000x96.Idx) :
    i ∈ ((cfg1.win 4).blk t).view.set ↔ ∀ a : Fin 2, win1_4.index t a * S2000x96.size a ≤ (i a).val
      ∧ (i a).val < win1_4.index t a * S2000x96.size a + S2000x96.size a := by
  show i ∈ ((View.whole (Pipeline.arrRef spec1 4)).slice (win1_4.rect t)).set ↔ _
  rw [View.set_slice_whole, Rect.mem_set_unit]
  exact Iff.rfl

/-- The 25 row blocks cover the array: row `r` lies in the block of point `r / 2000`, and every point writes back. -/
theorem rows_cover1 (i : S50000x96.Idx) :
    ∃ t : Fin cfg1.N, (cfg1.win 4).flush t = true ∧ i ∈ ((cfg1.win 4).blk t).view.set := by
  have hr : (i 0).val < 50000 := (i 0).isLt
  have hc : (i 1).val < 96 := (i 1).isLt
  obtain ⟨t, ht⟩ : ∃ t : Fin cfg1.N, t.val = (i 0).val / 2000 :=
    ⟨⟨(i 0).val / 2000, lt_of_lt_of_eq (by omega) N_1.symm⟩, rfl⟩
  obtain ⟨-, -, -, -, -, -, -, -, oR, oC⟩ := blocks_at1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 96 ≤ (i 1).val ∧ (i 1).val < win1_4.index t (1 : Fin 2) * 96 + 96
    omega

/-- The result array after the region: the layer's function of the four operand arrays as the region finds them. -/
theorem final1 (c : Dev nD) :
    (dat1 (F := Ideal) V c).arrAt 4 cfg1.N
      = Cert.Spec.linHid (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) rows_cover1

end Cert.KernelIdeal.Frm

end
-- ==== Proof.KI.Val2.lean ====
/-
  Region 2 of @main (a graph layer over the node rows), from blocks to the array: at the buffer contents `V` the
  region is entered with, the result array after the region is, as a whole, the layer's function of the four operand
  arrays: entry (r, q) is the sum over k of (state (r, k) + neighbour sum (r, k)) * weight (k, q), plus bias (0, q).
  Grid point `t` of the 25 handles rows 2000 t … 2000 t + 1999: it reads those rows of the state and of the neighbour
  sum and the whole weight and bias row, and writes those rows of the result. Each written row block is that block of
  the layer's function (the body's payload at one entry, with every block read identified with an array read), and
  the 25 row blocks cover the 50000 rows.
-/
import proofs.«155949_j8452495638861_1_alg».proof.Proof.KI.R2
import proofs.«155949_j8452495638861_1_alg».proof.Proof.Pay
import proofs.«155949_j8452495638861_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a whole-block rectangle, as the constant function. -/
theorem zero_offs2 : (![0, 0] : Fin 2 → Nat) = fun _ => 0 := funext fun a => by fin_cases a <;> rfl

/-- The index maps over the 25 points: the three row-blocked windows (state, neighbour sum, result) sit at row block
    `t`, column block 0; the weight and the bias row are one block at (0, 0). -/
theorem blocks_at2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, q) of the body's payload is entry (r, q) of the layer's function of the arrays, once row `p` of the two
    row blocks is row `r` of their arrays and the weight's column `q` and the bias's entry `q` are the arrays'. -/
theorem entry_eq2 (H A : FVec Ideal (⟨2, ![50000, 96]⟩ : Shape) .f32) (W : FVec Ideal (⟨2, ![96, 96]⟩ : Shape) .f32)
    (B : FVec Ideal (⟨2, ![1, 96]⟩ : Shape) .f32)
    (h a : Vec Ideal S2000x96 .f32) (w : Vec Ideal S96x96 .f32) (b : Vec Ideal S1x96 .f32)
    (r : Fin 50000) (p : Fin 2000) (q : Fin 96)
    (hh : ∀ k : Fin 96, h (ix2 p k) = H (ix2 r k)) (ha : ∀ k : Fin 96, a (ix2 p k) = A (ix2 r k))
    (hw : ∀ k : Fin 96, w (ix2 k q) = W (ix2 k q)) (hb : b (ix2 0 q) = B (ix2 0 q)) :
    k2_pay1 (F := Ideal) h a w b (ix2 p q) = Cert.Spec.linHid H A W B (ix2 r q) := by
  rw [Pay.pay2, Cert.Spec.linHid_apply, hb]
  congr 1
  exact Finset.sum_congr rfl fun k _ => by rw [hh, ha, hw]

variable (V : (c : Dev nD) → (b : Ref sig .tc) → Buf (Elt Ideal) ((c : Thread nD τ).loc b))

set_option maxHeartbeats 1600000 in
/-- What point `t` writes back is row block `t` of the layer's function of the four operand arrays. -/
theorem flushed2_eq (c : Dev nD) (t : Fin cfg2.N) :
    (dat2 (F := Ideal) V c).flushed 4 t = ((cfg2.win 4).blk t).view.read (Elt Ideal)
      (Cert.Spec.linHid (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2
  rw [View.canon_unit_zero zero_offs2]
  simp only [View.ld_unit_zero (S := S2000x96) zero_offs2, View.ld_unit_zero (S := S96x96) zero_offs2, View.ld_unit_zero (S := S1x96) zero_offs2]
  funext j
  obtain ⟨p, q, rfl⟩ : ∃ (p : Fin 2000) (q : Fin 96), j = ix2 p q := ⟨j 0, j 1, eq_ix2 (n0 := 2000) (n1 := 96) j⟩
  obtain ⟨sR, sC, aR, aC, wR, wC, bR, bC, oR, oC⟩ := blocks_at2 t
  have ht : t.val < 25 := lt_of_lt_of_eq t.isLt N_2
  show k2_pay1 (F := Ideal) (iblk2 V c 0 t) (iblk2 V c 1 t) (iblk2 V c 2 t) (iblk2 V c 3 t) (ix2 p q)
      = Cert.Spec.linHid (V c (Pipeline.arrRef spec2 0)) (V c (Pipeline.arrRef spec2 1)) (V c (Pipeline.arrRef spec2 2)) (V c (Pipeline.arrRef spec2 3))
          (((cfg2.win 4).blk t).view.emb (ix2 p q))
  -- the result block's entry (p, q) is the array's entry (2000 t + p, q)
  have er : ((cfg2.win 4).blk t).view.emb (ix2 p q) = ix2 (⟨t.val * 2000 + p.val, by omega⟩ : Fin 50000) q := by
    funext a; apply Fin.ext
    match a with
    | ⟨0, _⟩ => show win2_4.index t (0 : Fin 2) * 2000 + 1 * p.val = t.val * 2000 + p.val; omega
    | ⟨1, _⟩ => show win2_4.index t (1 : Fin 2) * 96 + 1 * q.val = q.val; omega
  refine (entry_eq2 (V c (Pipeline.arrRef spec2 0)) (V c (Pipeline.arrRef spec2 1)) (V c (Pipeline.arrRef spec2 2)) (V c (Pipeline.arrRef spec2 3))
    _ _ _ _ ⟨t.val * 2000 + p.val, by omega⟩ p q (fun k => ?_) (fun k => ?_) (fun k => ?_) ?_).trans (congrArg _ er.symm)
  · -- the state's row block: its row p is the array's row 2000 t + p
    show V c (Pipeline.arrRef spec2 0) (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 96 + 1 * k.val = k.val; omega
  · -- the neighbour sum's row block, likewise
    show V c (Pipeline.arrRef spec2 1) (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 96 + 1 * k.val = k.val; omega
  · -- the weight's one block is its array
    show V c (Pipeline.arrRef spec2 2) (((cfg2.win 2).blk t).view.emb (ix2 k q)) = _
    refine congrArg _ (funext fun a => Fin.ext ?_)
    match a with
    | ⟨0, _⟩ => show win2_2.index t (0 : Fin 2) * 96 + 1 * k.val = k.val; omega
    | ⟨1, _⟩ => show win2_2.index t (1 : Fin 2) * 96 + 1 * q.val = q.val; omega
  · -- the bias row's one block is its array
    show V c (Pipeline.arrRef spec2 3) (((cfg2.win 3).blk t).view.emb (ix2 0 q)) = _
    refine congrArg _ (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 96 + 1 * q.val = q.val; omega

/-- An entry of the result array is in point `t`'s block iff each coordinate is in the block's range on its axis. -/
theorem mem_blk2 (t : Fin cfg2.N) (i : S50000x96.Idx) :
    i ∈ ((cfg2.win 4).blk t).view.set ↔ ∀ a : Fin 2, win2_4.index t a * S2000x96.size a ≤ (i a).val
      ∧ (i a).val < win2_4.index t a * S2000x96.size a + S2000x96.size a := by
  show i ∈ ((View.whole (Pipeline.arrRef spec2 4)).slice (win2_4.rect t)).set ↔ _
  rw [View.set_slice_whole, Rect.mem_set_unit]
  exact Iff.rfl

/-- The 25 row blocks cover the array: row `r` lies in the block of point `r / 2000`, and every point writes back. -/
theorem rows_cover2 (i : S50000x96.Idx) :
    ∃ t : Fin cfg2.N, (cfg2.win 4).flush t = true ∧ i ∈ ((cfg2.win 4).blk t).view.set := by
  have hr : (i 0).val < 50000 := (i 0).isLt
  have hc : (i 1).val < 96 := (i 1).isLt
  obtain ⟨t, ht⟩ : ∃ t : Fin cfg2.N, t.val = (i 0).val / 2000 :=
    ⟨⟨(i 0).val / 2000, lt_of_lt_of_eq (by omega) N_2.symm⟩, rfl⟩
  obtain ⟨-, -, -, -, -, -, -, -, oR, oC⟩ := blocks_at2 t
  refine ⟨t, flush2_4 t, ?_⟩
  rw [mem_blk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 96 ≤ (i 1).val ∧ (i 1).val < win2_4.index t (1 : Fin 2) * 96 + 96
    omega

/-- The result array after the region: the layer's function of the four operand arrays as the region finds them. -/
theorem final2 (c : Dev nD) :
    (dat2 (F := Ideal) V c).arrAt 4 cfg2.N
      = Cert.Spec.linHid (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) rows_cover2

end Cert.KernelIdeal.Frm

end
-- ==== Proof.KI.Val3.lean ====
/-
  Region 3 of @main (a graph layer over the node rows), from blocks to the array: at the buffer contents `V` the
  region is entered with, the result array after the region is, as a whole, the layer's function of the four operand
  arrays: entry (r, q) is the sum over k of (state (r, k) + neighbour sum (r, k)) * weight (k, q), plus bias (0, q).
  Grid point `t` of the 25 handles rows 2000 t … 2000 t + 1999: it reads those rows of the state and of the neighbour
  sum and the whole weight and bias row, and writes those rows of the result. Each written row block is that block of
  the layer's function (the body's payload at one entry, with every block read identified with an array read), and
  the 25 row blocks cover the 50000 rows.
-/
import proofs.«155949_j8452495638861_1_alg».proof.Proof.KI.R3
import proofs.«155949_j8452495638861_1_alg».proof.Proof.Pay
import proofs.«155949_j8452495638861_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The zero offsets of a whole-block rectangle, as the constant function. -/
theorem zero_offs3 : (![0, 0] : Fin 2 → Nat) = fun _ => 0 := funext fun a => by fin_cases a <;> rfl

/-- The index maps over the 25 points: the three row-blocked windows (state, neighbour sum, result) sit at row block
    `t`, column block 0; the weight and the bias row are one block at (0, 0). -/
theorem blocks_at3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, q) of the body's payload is entry (r, q) of the layer's function of the arrays, once row `p` of the two
    row blocks is row `r` of their arrays and the weight's column `q` and the bias's entry `q` are the arrays'. -/
theorem entry_eq3 (H A : FVec Ideal (⟨2, ![50000, 96]⟩ : Shape) .f32) (W : FVec Ideal (⟨2, ![96, 96]⟩ : Shape) .f32)
    (B : FVec Ideal (⟨2, ![1, 96]⟩ : Shape) .f32)
    (h a : Vec Ideal S2000x96 .f32) (w : Vec Ideal S96x96 .f32) (b : Vec Ideal S1x96 .f32)
    (r : Fin 50000) (p : Fin 2000) (q : Fin 96)
    (hh : ∀ k : Fin 96, h (ix2 p k) = H (ix2 r k)) (ha : ∀ k : Fin 96, a (ix2 p k) = A (ix2 r k))
    (hw : ∀ k : Fin 96, w (ix2 k q) = W (ix2 k q)) (hb : b (ix2 0 q) = B (ix2 0 q)) :
    k3_pay1 (F := Ideal) h a w b (ix2 p q) = Cert.Spec.linHid H A W B (ix2 r q) := by
  rw [Pay.pay3, Cert.Spec.linHid_apply, hb]
  congr 1
  exact Finset.sum_congr rfl fun k _ => by rw [hh, ha, hw]

variable (V : (c : Dev nD) → (b : Ref sig .tc) → Buf (Elt Ideal) ((c : Thread nD τ).loc b))

set_option maxHeartbeats 1600000 in
/-- What point `t` writes back is row block `t` of the layer's function of the four operand arrays. -/
theorem flushed3_eq (c : Dev nD) (t : Fin cfg3.N) :
    (dat3 (F := Ideal) V c).flushed 4 t = ((cfg3.win 4).blk t).view.read (Elt Ideal)
      (Cert.Spec.linHid (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3
  rw [View.canon_unit_zero zero_offs3]
  simp only [View.ld_unit_zero (S := S2000x96) zero_offs3, View.ld_unit_zero (S := S96x96) zero_offs3, View.ld_unit_zero (S := S1x96) zero_offs3]
  funext j
  obtain ⟨p, q, rfl⟩ : ∃ (p : Fin 2000) (q : Fin 96), j = ix2 p q := ⟨j 0, j 1, eq_ix2 (n0 := 2000) (n1 := 96) j⟩
  obtain ⟨sR, sC, aR, aC, wR, wC, bR, bC, oR, oC⟩ := blocks_at3 t
  have ht : t.val < 25 := lt_of_lt_of_eq t.isLt N_3
  show k3_pay1 (F := Ideal) (iblk3 V c 0 t) (iblk3 V c 1 t) (iblk3 V c 2 t) (iblk3 V c 3 t) (ix2 p q)
      = Cert.Spec.linHid (V c (Pipeline.arrRef spec3 0)) (V c (Pipeline.arrRef spec3 1)) (V c (Pipeline.arrRef spec3 2)) (V c (Pipeline.arrRef spec3 3))
          (((cfg3.win 4).blk t).view.emb (ix2 p q))
  -- the result block's entry (p, q) is the array's entry (2000 t + p, q)
  have er : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 96 + 1 * q.val = q.val; omega
  refine (entry_eq3 (V c (Pipeline.arrRef spec3 0)) (V c (Pipeline.arrRef spec3 1)) (V c (Pipeline.arrRef spec3 2)) (V c (Pipeline.arrRef spec3 3))
    _ _ _ _ ⟨t.val * 2000 + p.val, by omega⟩ p q (fun k => ?_) (fun k => ?_) (fun k => ?_) ?_).trans (congrArg _ er.symm)
  · -- the state's row block: its row p is the array's row 2000 t + p
    show V c (Pipeline.arrRef spec3 0) (((cfg3.win 0).blk t).view.emb (ix2 p k)) = _
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 96 + 1 * k.val = k.val; omega
  · -- the neighbour sum's row block, likewise
    show V c (Pipeline.arrRef spec3 1) (((cfg3.win 1).blk t).view.emb (ix2 p k)) = _
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 96 + 1 * k.val = k.val; omega
  · -- the weight's one block is its array
    show V c (Pipeline.arrRef spec3 2) (((cfg3.win 2).blk t).view.emb (ix2 k q)) = _
    refine congrArg _ (funext fun a => Fin.ext ?_)
    match a with
    | ⟨0, _⟩ => show win3_2.index t (0 : Fin 2) * 96 + 1 * k.val = k.val; omega
    | ⟨1, _⟩ => show win3_2.index t (1 : Fin 2) * 96 + 1 * q.val = q.val; omega
  · -- the bias row's one block is its array
    show V c (Pipeline.arrRef spec3 3) (((cfg3.win 3).blk t).view.emb (ix2 0 q)) = _
    refine congrArg _ (funext fun a => Fin.ext ?_)
    match a with
    | ⟨0, _⟩ => show win3_3.index t (0 : Fin 2) * 1 + 1 * (0 : Fin 1).val = (0 : Fin 1).val; omega
    | ⟨1, _⟩ => show win3_3.index t (1 : Fin 2) * 96 + 1 * q.val = q.val; omega

/-- An entry of the result array is in point `t`'s block iff each coordinate is in the block's range on its axis. -/
theorem mem_blk3 (t : Fin cfg3.N) (i : S50000x96.Idx) :
    i ∈ ((cfg3.win 4).blk t).view.set ↔ ∀ a : Fin 2, win3_4.index t a * S2000x96.size a ≤ (i a).val
      ∧ (i a).val < win3_4.index t a * S2000x96.size a + S2000x96.size a := by
  show i ∈ ((View.whole (Pipeline.arrRef spec3 4)).slice (win3_4.rect t)).set ↔ _
  rw [View.set_slice_whole, Rect.mem_set_unit]
  exact Iff.rfl

/-- The 25 row blocks cover the array: row `r` lies in the block of point `r / 2000`, and every point writes back. -/
theorem rows_cover3 (i : S50000x96.Idx) :
    ∃ t : Fin cfg3.N, (cfg3.win 4).flush t = true ∧ i ∈ ((cfg3.win 4).blk t).view.set := by
  have hr : (i 0).val < 50000 := (i 0).isLt
  have hc : (i 1).val < 96 := (i 1).isLt
  obtain ⟨t, ht⟩ : ∃ t : Fin cfg3.N, t.val = (i 0).val / 2000 :=
    ⟨⟨(i 0).val / 2000, lt_of_lt_of_eq (by omega) N_3.symm⟩, rfl⟩
  obtain ⟨-, -, -, -, -, -, -, -, oR, oC⟩ := blocks_at3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 96 ≤ (i 1).val ∧ (i 1).val < win3_4.index t (1 : Fin 2) * 96 + 96
    omega

/-- The result array after the region: the layer's function of the four operand arrays as the region finds them. -/
theorem final3 (c : Dev nD) :
    (dat3 (F := Ideal) V c).arrAt 4 cfg3.N
      = Cert.Spec.linHid (V c (Pipeline.arrRef spec3 0)) (V c (Pipeline.arrRef spec3 1)) (V c (Pipeline.arrRef spec3 2)) (V c (Pipeline.arrRef spec3 3)) :=
  (dat3 V c).arrAt_eq_of_cover 4 _ (fun t _ => flushed3_eq V c t) rows_cover3

end Cert.KernelIdeal.Frm

end
-- ==== Proof.KI.Val4.lean ====
/-
  Region 4 of @main, from blocks to the array.  The region runs its body at 25 grid points; point `t` reads row block
  `t` (2000 rows) of the left operand and the whole weight and bias arrays, and writes back row block `t` of the
  result.  Each written block is the matching row block of the layer `x * w + b` applied to the operand arrays as
  the region finds them, and the 25 row blocks tile the result's 50000 rows, so after the region the result array
  is that layer of the operand arrays, whatever the arrays held.
-/
import proofs.«155949_j8452495638861_1_alg».proof.Proof.KI.R4
import proofs.«155949_j8452495638861_1_alg».proof.Proof.Pay
import proofs.«155949_j8452495638861_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The printed index maps, decided once over the grid -/

/-- The whole-block rectangles sit at zero offsets. -/
theorem zeroOffsets4 : (![0, 0] : Fin 2 → Nat) = fun _ => 0 := funext fun a => by fin_cases a <;> rfl

/-- At grid point `t` the row-blocked windows (the left operand and the result) are at row block `t`, column block
    zero; the weight and bias windows are at block zero on both axes. -/
theorem blockIdx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Every row block of the result is some point's. -/
theorem rowBlock_onto4 : ∀ r : Fin 25, ∃ t : Fin cfg4.N, win4_3.index t = ![r.val, 0] :=
  (by decide +kernel : ∀ r : Fin 25, ∃ t : Fin grid4.N, win4_3.index t = ![r.val, 0])

/-! ## One entry of a row block -/

/-- Row `p` of row block `t`, as a row of the whole array. -/
def rowOf4 (t : Fin cfg4.N) (p : Fin 2000) : Fin 50000 :=
  ⟨t.val * 2000 + p.val, by have ht : t.val < 25 := N_4 ▸ t.isLt; have hp := p.isLt; omega⟩

/-- One entry of a row block's payload is the layer's entry at the block's row in the array, when the blocks the
    payload reads agree there with the arrays: the left block's row `p` with the array's row `r`, the weight and
    bias blocks with their whole arrays. -/
theorem entry4_of_blocks (X : FVec Ideal S50000x384 .f32) (W : FVec Ideal S384x128 .f32) (B : FVec Ideal S1x128 .f32)
    (x : Vec Ideal S2000x384 .f32) (w : Vec Ideal S384x128 .f32) (b : Vec Ideal S1x128 .f32)
    (r : Fin 50000) (p : Fin 2000) (q : Fin 128)
    (hx : ∀ k : Fin 384, x (ix2 p k) = X (ix2 r k)) (hw : ∀ k : Fin 384, w (ix2 k q) = W (ix2 k q))
    (hb : b (ix2 0 q) = B (ix2 0 q)) :
    k4_pay1 (F := Ideal) x w b (ix2 p q) = Cert.Spec.linOut X W B (ix2 r q) := by
  rw [Pay.pay4, Cert.Spec.linOut_apply, hb]
  exact congrArg (· + B (ix2 0 q)) (Finset.sum_congr rfl fun k _ => by rw [hx k, hw k])

variable (V : (c : Dev nD) → (b : Ref sig .tc) → Buf (Elt Ideal) ((c : Thread nD τ).loc b))

/-! ## What a point writes back -/

set_option maxHeartbeats 1600000 in
/-- What point `t` writes back is row block `t` of the layer applied to the operand arrays as the region finds them:
    an element of a block sits in its array, on each axis, at the block index times the block's size plus its own
    coordinate, so the left block's rows are the array's rows `t * 2000 + p` and the weight and bias blocks are
    their arrays. -/
theorem flushed4_eq (c : Dev nD) (t : Fin cfg4.N) :
    (dat4 (F := Ideal) V c).flushed 3 t = ((cfg4.win 3).blk t).view.read (Elt Ideal)
      (Cert.Spec.linOut (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4
  rw [View.canon_unit_zero zeroOffsets4]
  simp only [View.ld_unit_zero (S := S2000x384) zeroOffsets4, View.ld_unit_zero (S := S384x128) zeroOffsets4,
    View.ld_unit_zero (S := S1x128) zeroOffsets4]
  obtain ⟨hxr, hxc, hwr, hwc, hbr, hbc, hor, hoc⟩ := blockIdx4 t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (ix2 p q)
    = Cert.Spec.linOut (V c (Pipeline.arrRef spec4 0)) (V c (Pipeline.arrRef spec4 1)) (V c (Pipeline.arrRef spec4 2))
        (((cfg4.win 3).blk t).view.emb (ix2 p q))
  have ho : ((cfg4.win 3).blk t).view.emb (ix2 p q) = ix2 (rowOf4 t p) q := by
    funext a; apply Fin.ext
    match a with
    | ⟨0, _⟩ => show win4_3.index t (0 : Fin 2) * 2000 + 1 * p.val = t.val * 2000 + p.val; omega
    | ⟨1, _⟩ => show win4_3.index t (1 : Fin 2) * 128 + 1 * q.val = q.val; omega
  refine (entry4_of_blocks (V c (Pipeline.arrRef spec4 0)) (V c (Pipeline.arrRef spec4 1)) (V c (Pipeline.arrRef spec4 2))
    (iblk4 V c 0 t) (iblk4 V c 1 t) (iblk4 V c 2 t) (rowOf4 t p) p q ?_ ?_ ?_).trans (congrArg _ ho.symm)
  · intro k
    show V c (Pipeline.arrRef spec4 0) (((cfg4.win 0).blk t).view.emb (ix2 p k)) = V c (Pipeline.arrRef spec4 0) (ix2 (rowOf4 t p) k)
    refine congrArg _ ?_
    funext a; apply Fin.ext
    match a with
    | ⟨0, _⟩ => show win4_0.index t (0 : Fin 2) * 2000 + 1 * p.val = t.val * 2000 + p.val; omega
    | ⟨1, _⟩ => show win4_0.index t (1 : Fin 2) * 384 + 1 * k.val = k.val; omega
  · intro k
    show V c (Pipeline.arrRef spec4 1) (((cfg4.win 1).blk t).view.emb (ix2 k q)) = V c (Pipeline.arrRef spec4 1) (ix2 k q)
    refine congrArg _ ?_
    funext a; apply Fin.ext
    match a with
    | ⟨0, _⟩ => show win4_1.index t (0 : Fin 2) * 384 + 1 * k.val = k.val; omega
    | ⟨1, _⟩ => show win4_1.index t (1 : Fin 2) * 128 + 1 * q.val = q.val; omega
  · show V c (Pipeline.arrRef spec4 2) (((cfg4.win 2).blk t).view.emb (ix2 0 q)) = V c (Pipeline.arrRef spec4 2) (ix2 0 q)
    refine congrArg _ ?_
    funext a; apply Fin.ext
    match a with
    | ⟨0, _⟩ => show win4_2.index t (0 : Fin 2) * 1 + 1 * (0 : Fin 1).val = (0 : Fin 1).val; omega
    | ⟨1, _⟩ => show win4_2.index t (1 : Fin 2) * 128 + 1 * q.val = q.val; omega

/-! ## The row blocks tile the array -/

/-- An index of the result array is in point `t`'s block iff each coordinate is in the block's range on its axis. -/
theorem mem_rowBlock4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole (Pipeline.arrRef spec4 3)).slice (win4_3.rect t)).set ↔ _
  rw [View.set_slice_whole, Rect.mem_set_unit]
  exact Iff.rfl

/-- Every index of the result array is in the block of a point that writes back: row `r` is in row block `r / 2000`. -/
theorem rowBlocks_cover4 (i : S50000x128.Idx) :
    ∃ t : Fin cfg4.N, (cfg4.win 3).flush t = true ∧ i ∈ ((cfg4.win 3).blk t).view.set := by
  have hr : (i 0).val < 50000 := (i 0).isLt
  have hc : (i 1).val < 128 := (i 1).isLt
  obtain ⟨t, ht⟩ := rowBlock_onto4 ⟨(i 0).val / 2000, by omega⟩
  have hrow : win4_3.index t (0 : Fin 2) = (i 0).val / 2000 := congrFun ht 0
  have hcol : win4_3.index t (1 : Fin 2) = 0 := congrFun ht 1
  refine ⟨t, flush4_3 t, ?_⟩
  rw [mem_rowBlock4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-! ## The array after the region -/

/-- After the region the result array is the layer applied to the operand arrays as the region finds them. -/
theorem final4 (c : Dev nD) :
    (dat4 (F := Ideal) V c).arrAt 3 cfg4.N
      = Cert.Spec.linOut (V c (Pipeline.arrRef spec4 0)) (V c (Pipeline.arrRef spec4 1)) (V c (Pipeline.arrRef spec4 2)) :=
  (dat4 (F := Ideal) V c).arrAt_eq_of_cover 3
    (Cert.Spec.linOut (V c (Pipeline.arrRef spec4 0)) (V c (Pipeline.arrRef spec4 1)) (V c (Pipeline.arrRef spec4 2)))
    (fun t _ => flushed4_eq V c t) rowBlocks_cover4

end Cert.KernelIdeal.Frm

end
-- ==== Proof.HostFns.lean ====
/-
  The host-side functions both programs apply between the layers, each under one name, so that a proof carries them
  whole and never opens them: the two rows of the edge list as flat index vectors, the neighbour sum
  (gather the rows named by the source indices, wrapped into range as jax does, and scatter-add them at the destination
  indices into zeros), the transposed weights, the bias rows, and the concatenation of the four hidden states.
-/
import proofs.«155949_j8452495638861_1_alg».proof.Proof.Gen.KernelIdeal

noncomputable section

namespace Cert.KernelIdeal.HostFns

open Cert.KernelIdeal Cert.KernelIdeal.Gen Idealize.ShloMosaic

variable {F : FTy → Type} [FloatOps F]

/-- Row 0 of the edge list (the source node of every edge), flat. -/
def srcOf (e : (⟨S2x800000, .i32⟩ : BufTy).Contents (Elt F)) : (⟨S800000, .i32⟩ : BufTy).Contents (Elt F) :=
  fun i => shapeCast S800000 (extractStridedSlice S1x800000 ![0, 0] e slices_S2x800000_S1x800000_0_0) shapeCasts_S1x800000_S800000 i

/-- Row 1 of the edge list (the destination node of every edge), flat. -/
def dstOf (e : (⟨S2x800000, .i32⟩ : BufTy).Contents (Elt F)) : (⟨S800000, .i32⟩ : BufTy).Contents (Elt F) :=
  fun i => shapeCast S800000 (extractStridedSlice S1x800000 ![1, 0] e slices_S2x800000_S1x800000_1_0) shapeCasts_S1x800000_S800000 i

/-- The neighbour sum of the node states `h`: for every edge the row of `h` at its source (a negative index wrapped
    by the node count first), added into the row of its destination, from zeros. -/
def aggOf (src dst : (⟨S800000, .i32⟩ : BufTy).Contents (Elt F)) (h : (⟨S50000x96, .f32⟩ : BufTy).Contents (Elt F)) :
    (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The input projection's weight, transposed to [128, 96]. -/
def wInT (w : (⟨S96x128, .f32⟩ : BufTy).Contents (Elt F)) : (⟨S128x96, .f32⟩ : BufTy).Contents (Elt F) :=
  transpose S128x96 [1, 0] w transposes_S96x128_S128x96_1_0

/-- The input projection's bias as a row [1, 96]. -/
def bInRow (b : (⟨S96, .f32⟩ : BufTy).Contents (Elt F)) : (⟨S1x96, .f32⟩ : BufTy).Contents (Elt F) :=
  fun i => shapeCast S1x96 b shapeCasts_S96_S1x96 i

/-- Layer 0's weight, transposed. -/
def wLayerT0 (w : (⟨S3x96x96, .f32⟩ : BufTy).Contents (Elt F)) : (⟨S96x96, .f32⟩ : BufTy).Contents (Elt F) :=
  transpose S96x96 [1, 0] (fun i => shapeCast S96x96 (extractStridedSlice S1x96x96 ![0, 0, 0] w slices_S3x96x96_S1x96x96_0_0_0) shapeCasts_S1x96x96_S96x96 i) transposes_S96x96_S96x96_1_0
/-- Layer 1's weight, transposed. -/
def wLayerT1 (w : (⟨S3x96x96, .f32⟩ : BufTy).Contents (Elt F)) : (⟨S96x96, .f32⟩ : BufTy).Contents (Elt F) :=
  transpose S96x96 [1, 0] (fun i => shapeCast S96x96 (extractStridedSlice S1x96x96 ![1, 0, 0] w slices_S3x96x96_S1x96x96_1_0_0) shapeCasts_S1x96x96_S96x96 i) transposes_S96x96_S96x96_1_0
/-- Layer 2's weight, transposed. -/
def wLayerT2 (w : (⟨S3x96x96, .f32⟩ : BufTy).Contents (Elt F)) : (⟨S96x96, .f32⟩ : BufTy).Contents (Elt F) :=
  transpose S96x96 [1, 0] (fun i => shapeCast S96x96 (extractStridedSlice S1x96x96 ![2, 0, 0] w slices_S3x96x96_S1x96x96_2_0_0) shapeCasts_S1x96x96_S96x96 i) transposes_S96x96_S96x96_1_0

/-- Layer 0's bias as a flat vector [96] (row 0 of the stacked biases). -/
def bLayer0 (b : (⟨S3x96, .f32⟩ : BufTy).Contents (Elt F)) : (⟨S96, .f32⟩ : BufTy).Contents (Elt F) :=
  fun i => shapeCast S96 (extractStridedSlice S1x96 ![0, 0] b slices_S3x96_S1x96_0_0) shapeCasts_S1x96_S96 i
/-- Layer 1's bias, flat. -/
def bLayer1 (b : (⟨S3x96, .f32⟩ : BufTy).Contents (Elt F)) : (⟨S96, .f32⟩ : BufTy).Contents (Elt F) :=
  fun i => shapeCast S96 (extractStridedSlice S1x96 ![1, 0] b slices_S3x96_S1x96_1_0) shapeCasts_S1x96_S96 i
/-- Layer 2's bias, flat. -/
def bLayer2 (b : (⟨S3x96, .f32⟩ : BufTy).Contents (Elt F)) : (⟨S96, .f32⟩ : BufTy).Contents (Elt F) :=
  fun i => shapeCast S96 (extractStridedSlice S1x96 ![2, 0] b slices_S3x96_S1x96_2_0) shapeCasts_S1x96_S96 i

/-- The four hidden states side by side, [50000, 384]. -/
def catOf (h0 h1 h2 h3 : (⟨S50000x96, .f32⟩ : BufTy).Contents (Elt F)) : (⟨S50000x384, .f32⟩ : BufTy).Contents (Elt F) :=
  concatenate S50000x384 1 [⟨S50000x96, h0⟩, ⟨S50000x96, h1⟩, ⟨S50000x96, h2⟩, ⟨S50000x96, h3⟩] concatenates_S50000x96_S50000x96_S50000x96_S50000x96_S50000x384_d1

/-- The output projection's weight, transposed to [384, 128]. -/
def wOutT (w : (⟨S128x384, .f32⟩ : BufTy).Contents (Elt F)) : (⟨S384x128, .f32⟩ : BufTy).Contents (Elt F) :=
  transpose S384x128 [1, 0] w transposes_S128x384_S384x128_1_0

/-- The output projection's bias as a row [1, 128]. -/
def bOutRow (b : (⟨S128, .f32⟩ : BufTy).Contents (Elt F)) : (⟨S1x128, .f32⟩ : BufTy).Contents (Elt F) :=
  fun i => shapeCast S1x128 b shapeCasts_S128_S1x128 i

end Cert.KernelIdeal.HostFns

end
-- ==== Proof.Host.lean ====
/-
  What the buffers read by each kernel call hold after the stretch of host operations before it, for an arbitrary
  valuation of the buffers before the stretch: each is the named host-side function of the valuation at the buffers
  the stretch reads. The equalities are between the same operation terms; no arithmetic is opened.
-/
import proofs.«155949_j8452495638861_1_alg».proof.Proof.Gen.KernelIdeal.Launch
import proofs.«155949_j8452495638861_1_alg».proof.Proof.HostFns
import Idealize.ShloMosaic.Lib.StableHlo.Run

noncomputable section

namespace Cert.KernelIdeal.Host

open Cert.KernelIdeal Cert.KernelIdeal.Gen Cert.KernelIdeal.HostFns Idealize.ShloMosaic Idealize.ShloMosaic.TcCoe

variable {F : FTy → Type} [FloatOps F] (W : Valuation τ sig (Elt F))

/-! ## Before the first kernel call -/

/-- The source indices are row 0 of the edge list, flat. -/
theorem s0_src : StableHlo.after hostOps0 W (Proc.devRef .tc main_v1) = srcOf (W (Proc.devRef .tc main_arg1)) := by
  after_results; rfl

/-- The destination indices are row 1 of the edge list, flat. -/
theorem s0_dst : StableHlo.after hostOps0 W (Proc.devRef .tc main_v3) = dstOf (W (Proc.devRef .tc main_arg1)) := by
  after_results; rfl

/-- The input weight, transposed. -/
theorem s0_w : StableHlo.after hostOps0 W (Proc.devRef .tc main_v4) = wInT (W (Proc.devRef .tc main_arg2)) := by
  after_results; rfl

/-- The input bias as a row. -/
theorem s0_b : StableHlo.after hostOps0 W (Proc.devRef .tc main_v5) = bInRow (W (Proc.devRef .tc main_arg3)) := by
  after_results; rfl

/-! ## Before the second kernel call -/

/-- The neighbour sum of the previous hidden state. -/
theorem s1_agg : StableHlo.after hostOps1 W (Proc.devRef .tc main_v16)
    = aggOf (W (Proc.devRef .tc main_v1)) (W (Proc.devRef .tc main_v3)) (W (Proc.devRef .tc main_v6)) := by
  after_results; rfl

/-- Layer 0's weight, transposed. -/
theorem s1_w : StableHlo.after hostOps1 W (Proc.devRef .tc main_v21) = wLayerT0 (W (Proc.devRef .tc main_arg4)) := by
  after_results; rfl

/-- Layer 0's bias as a row. -/
theorem s1_b : StableHlo.after hostOps1 W (Proc.devRef .tc main_v22) = bInRow (bLayer0 (W (Proc.devRef .tc main_arg5))) := by
  after_results; rfl

/-! ## Before the third kernel call -/

/-- The neighbour sum of the previous hidden state. -/
theorem s2_agg : StableHlo.after hostOps2 W (Proc.devRef .tc main_v33)
    = aggOf (W (Proc.devRef .tc main_v1)) (W (Proc.devRef .tc main_v3)) (W (Proc.devRef .tc main_v23)) := by
  after_results; rfl

/-- Layer 1's weight, transposed. -/
theorem s2_w : StableHlo.after hostOps2 W (Proc.devRef .tc main_v38) = wLayerT1 (W (Proc.devRef .tc main_arg4)) := by
  after_results; rfl

/-- Layer 1's bias as a row. -/
theorem s2_b : StableHlo.after hostOps2 W (Proc.devRef .tc main_v39) = bInRow (bLayer1 (W (Proc.devRef .tc main_arg5))) := by
  after_results; rfl

/-! ## Before the fourth kernel call -/

/-- The neighbour sum of the previous hidden state. -/
theorem s3_agg : StableHlo.after hostOps3 W (Proc.devRef .tc main_v50)
    = aggOf (W (Proc.devRef .tc main_v1)) (W (Proc.devRef .tc main_v3)) (W (Proc.devRef .tc main_v40)) := by
  after_results; rfl

/-- Layer 2's weight, transposed. -/
theorem s3_w : StableHlo.after hostOps3 W (Proc.devRef .tc main_v55) = wLayerT2 (W (Proc.devRef .tc main_arg4)) := by
  after_results; rfl

/-- Layer 2's bias as a row. -/
theorem s3_b : StableHlo.after hostOps3 W (Proc.devRef .tc main_v56) = bInRow (bLayer2 (W (Proc.devRef .tc main_arg5))) := by
  after_results; rfl

/-! ## Before the fifth kernel call -/

/-- The four hidden states side by side. -/
theorem s4_cat : StableHlo.after hostOps4 W (Proc.devRef .tc main_v58)
    = catOf (W (Proc.devRef .tc main_v6)) (W (Proc.devRef .tc main_v23)) (W (Proc.devRef .tc main_v40)) (W (Proc.devRef .tc main_v57)) := by
  after_results; rfl

/-- The output weight, transposed. -/
theorem s4_w : StableHlo.after hostOps4 W (Proc.devRef .tc main_v59) = wOutT (W (Proc.devRef .tc main_arg6)) := by
  after_results; rfl

/-- The output bias as a row. -/
theorem s4_b : StableHlo.after hostOps4 W (Proc.devRef .tc main_v60) = bOutRow (W (Proc.devRef .tc main_arg7)) := by
  after_results; rfl

end Cert.KernelIdeal.Host

end
-- ==== Proof.Net.lean ====
/-
  The whole network as one function of the eight argument arrays, stage by stage: the input projection, three graph
  layers (each the linear layer of a state plus its neighbour sum), and the output projection of the four states side
  by side.  Both programs are shown to compute `netOf` of their arguments.
-/
import proofs.«155949_j8452495638861_1_alg».proof.Proof.Spec
import proofs.«155949_j8452495638861_1_alg».proof.Proof.HostFns

noncomputable section

namespace Cert.Net

open Cert.KernelIdeal Cert.KernelIdeal.HostFns Cert.Spec Idealize.ShloMosaic

/-- The state after the input projection. -/
def h0Of (x0 : (⟨S50000x128, .f32⟩ : BufTy).Contents (Elt Ideal)) (x2 : (⟨S96x128, .f32⟩ : BufTy).Contents (Elt Ideal))
    (x3 : (⟨S96, .f32⟩ : BufTy).Contents (Elt Ideal)) : (⟨S50000x96, .f32⟩ : BufTy).Contents (Elt Ideal) :=
  linIn x0 (wInT x2) (bInRow x3)

/-- One graph layer over a state `h`: the linear layer of `h` plus its neighbour sum along the edges `e`. -/
def layerOf (e : (⟨S2x800000, .i32⟩ : BufTy).Contents (Elt Ideal)) (h : (⟨S50000x96, .f32⟩ : BufTy).Contents (Elt Ideal))
    (w : (⟨S96x96, .f32⟩ : BufTy).Contents (Elt Ideal)) (b : (⟨S96, .f32⟩ : BufTy).Contents (Elt Ideal)) :
    (⟨S50000x96, .f32⟩ : BufTy).Contents (Elt Ideal) :=
  linHid h (aggOf (srcOf e) (dstOf e) h) w (bInRow b)

/-- The state after graph layer 0. -/
def h1Of (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    (⟨S50000x96, .f32⟩ : BufTy).Contents (Elt Ideal) :=
  layerOf x1 (h0Of x0 x2 x3) (wLayerT0 x4) (bLayer0 x5)

/-- The state after graph layer 1. -/
def h2Of (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    (⟨S50000x96, .f32⟩ : BufTy).Contents (Elt Ideal) :=
  layerOf x1 (h1Of x0 x1 x2 x3 x4 x5) (wLayerT1 x4) (bLayer1 x5)

/-- The state after graph layer 2. -/
def h3Of (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    (⟨S50000x96, .f32⟩ : BufTy).Contents (Elt Ideal) :=
  layerOf x1 (h2Of x0 x1 x2 x3 x4 x5) (wLayerT2 x4) (bLayer2 x5)

/-- The network's result. -/
def netOf (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal))
    (x6 : (⟨S128x384, .f32⟩ : BufTy).Contents (Elt Ideal)) (x7 : (⟨S128, .f32⟩ : BufTy).Contents (Elt Ideal)) :
    (⟨S50000x128, .f32⟩ : BufTy).Contents (Elt Ideal) :=
  linOut (catOf (h0Of x0 x2 x3) (h1Of x0 x1 x2 x3 x4 x5) (h2Of x0 x1 x2 x3 x4 x5) (h3Of x0 x1 x2 x3 x4 x5)) (wOutT x6) (bOutRow x7)

end Cert.Net

end
-- ==== Proof.KI.Value.lean ====
/-
  What the kernel program's result buffer holds after the run, at the ideal values: the network's function of the
  eight argument arrays.  The contents of the buffers a later item reads are followed boundary by boundary through
  @main: a host stretch writes the named host functions of what it reads and keeps every other buffer; a call writes
  its output array — the layer's function of its operand arrays — and keeps its inputs and every buffer it does not
  touch.
-/
import proofs.«155949_j8452495638861_1_alg».proof.Proof.KI.Run
import proofs.«155949_j8452495638861_1_alg».proof.Proof.KI.Val0
import proofs.«155949_j8452495638861_1_alg».proof.Proof.KI.Val1
import proofs.«155949_j8452495638861_1_alg».proof.Proof.KI.Val2
import proofs.«155949_j8452495638861_1_alg».proof.Proof.KI.Val3
import proofs.«155949_j8452495638861_1_alg».proof.Proof.KI.Val4
import proofs.«155949_j8452495638861_1_alg».proof.Proof.Host
import proofs.«155949_j8452495638861_1_alg».proof.Proof.Net

set_option maxRecDepth 16384

noncomputable section

namespace Cert.KernelIdeal.Frm

open Cert.KernelIdeal Cert.KernelIdeal.Gen Cert.KernelIdeal.HostFns
open Idealize.ShloMosaic Idealize.ShloMosaic.TcCoe Idealize.SL.Sem

variable (m : (ℓ : Loc nD τ sig) → Buf (Elt Ideal) ℓ) (ρ : Dev nD → PrngReg) (c : Dev nD)

/-- The argument arrays on core `c` at launch. -/
abbrev x0 : (⟨S50000x128, .f32⟩ : BufTy).Contents (Elt Ideal) := m ((c.tc : Thread nD τ).loc main_arg0)
abbrev x1 : (⟨S2x800000, .i32⟩ : BufTy).Contents (Elt Ideal) := m ((c.tc : Thread nD τ).loc main_arg1)
abbrev x2 : (⟨S96x128, .f32⟩ : BufTy).Contents (Elt Ideal) := m ((c.tc : Thread nD τ).loc main_arg2)
abbrev x3 : (⟨S96, .f32⟩ : BufTy).Contents (Elt Ideal) := m ((c.tc : Thread nD τ).loc main_arg3)
abbrev x4 : (⟨S3x96x96, .f32⟩ : BufTy).Contents (Elt Ideal) := m ((c.tc : Thread nD τ).loc main_arg4)
abbrev x5 : (⟨S3x96, .f32⟩ : BufTy).Contents (Elt Ideal) := m ((c.tc : Thread nD τ).loc main_arg5)
abbrev x6 : (⟨S128x384, .f32⟩ : BufTy).Contents (Elt Ideal) := m ((c.tc : Thread nD τ).loc main_arg6)
abbrev x7 : (⟨S128, .f32⟩ : BufTy).Contents (Elt Ideal) := m ((c.tc : Thread nD τ).loc main_arg7)

/-! ## At launch -/
theorem b0_arg0 : W0 m ρ c (Proc.devRef .tc main_arg0) = x0 m c :=
  rfl
theorem b0_arg1 : W0 m ρ c (Proc.devRef .tc main_arg1) = x1 m c :=
  rfl
theorem b0_arg2 : W0 m ρ c (Proc.devRef .tc main_arg2) = x2 m c :=
  rfl
theorem b0_arg3 : W0 m ρ c (Proc.devRef .tc main_arg3) = x3 m c :=
  rfl
theorem b0_arg4 : W0 m ρ c (Proc.devRef .tc main_arg4) = x4 m c :=
  rfl
theorem b0_arg5 : W0 m ρ c (Proc.devRef .tc main_arg5) = x5 m c :=
  rfl
theorem b0_arg6 : W0 m ρ c (Proc.devRef .tc main_arg6) = x6 m c :=
  rfl
theorem b0_arg7 : W0 m ρ c (Proc.devRef .tc main_arg7) = x7 m c :=
  rfl

/-! ## After the host stretch 0 -/
theorem b1_arg0 : W1 m ρ c (Proc.devRef .tc main_arg0) = x0 m c :=
  (W1_keep m ρ c main_arg0 (by decide)).trans (b0_arg0 m ρ c)
theorem b1_arg4 : W1 m ρ c (Proc.devRef .tc main_arg4) = x4 m c :=
  (W1_keep m ρ c main_arg4 (by decide)).trans (b0_arg4 m ρ c)
theorem b1_arg5 : W1 m ρ c (Proc.devRef .tc main_arg5) = x5 m c :=
  (W1_keep m ρ c main_arg5 (by decide)).trans (b0_arg5 m ρ c)
theorem b1_arg6 : W1 m ρ c (Proc.devRef .tc main_arg6) = x6 m c :=
  (W1_keep m ρ c main_arg6 (by decide)).trans (b0_arg6 m ρ c)
theorem b1_arg7 : W1 m ρ c (Proc.devRef .tc main_arg7) = x7 m c :=
  (W1_keep m ρ c main_arg7 (by decide)).trans (b0_arg7 m ρ c)
theorem b1_v1 : W1 m ρ c (Proc.devRef .tc main_v1) = (srcOf (x1 m c)) :=
  (Host.s0_src (W0 m ρ c)).trans (congrArg srcOf (b0_arg1 m ρ c))
theorem b1_v3 : W1 m ρ c (Proc.devRef .tc main_v3) = (dstOf (x1 m c)) :=
  (Host.s0_dst (W0 m ρ c)).trans (congrArg dstOf (b0_arg1 m ρ c))
theorem b1_v4 : W1 m ρ c (Proc.devRef .tc main_v4) = (wInT (x2 m c)) :=
  (Host.s0_w (W0 m ρ c)).trans (congrArg wInT (b0_arg2 m ρ c))
theorem b1_v5 : W1 m ρ c (Proc.devRef .tc main_v5) = (bInRow (x3 m c)) :=
  (Host.s0_b (W0 m ρ c)).trans (congrArg bInRow (b0_arg3 m ρ c))

/-! ## After call 0 -/
theorem b2_arg4 : W2 m ρ c (Proc.devRef .tc main_arg4) = x4 m c :=
  (W2_of_ne m ρ c main_arg4 (by decide)).trans (b1_arg4 m ρ c)
theorem b2_arg5 : W2 m ρ c (Proc.devRef .tc main_arg5) = x5 m c :=
  (W2_of_ne m ρ c main_arg5 (by decide)).trans (b1_arg5 m ρ c)
theorem b2_arg6 : W2 m ρ c (Proc.devRef .tc main_arg6) = x6 m c :=
  (W2_of_ne m ρ c main_arg6 (by decide)).trans (b1_arg6 m ρ c)
theorem b2_arg7 : W2 m ρ c (Proc.devRef .tc main_arg7) = x7 m c :=
  (W2_of_ne m ρ c main_arg7 (by decide)).trans (b1_arg7 m ρ c)
theorem b2_v1 : W2 m ρ c (Proc.devRef .tc main_v1) = (srcOf (x1 m c)) :=
  (W2_of_ne m ρ c main_v1 (by decide)).trans (b1_v1 m ρ c)
theorem b2_v3 : W2 m ρ c (Proc.devRef .tc main_v3) = (dstOf (x1 m c)) :=
  (W2_of_ne m ρ c main_v3 (by decide)).trans (b1_v3 m ρ c)
theorem b2_v6 : W2 m ρ c (Proc.devRef .tc main_v6) = (Cert.Net.h0Of (x0 m c) (x2 m c) (x3 m c)) :=
  (W2_arr m ρ c 3).trans ((final0 (V1 m ρ) c).trans (by unfold Cert.Net.h0Of; exact (congr (congr (congrArg Cert.Spec.linIn (b1_arg0 m ρ c)) (b1_v4 m ρ c)) (b1_v5 m ρ c))))

/-! ## After the host stretch 1 -/
theorem b3_arg4 : W3 m ρ c (Proc.devRef .tc main_arg4) = x4 m c :=
  (W3_keep m ρ c main_arg4 (by decide)).trans (b2_arg4 m ρ c)
theorem b3_arg5 : W3 m ρ c (Proc.devRef .tc main_arg5) = x5 m c :=
  (W3_keep m ρ c main_arg5 (by decide)).trans (b2_arg5 m ρ c)
theorem b3_arg6 : W3 m ρ c (Proc.devRef .tc main_arg6) = x6 m c :=
  (W3_keep m ρ c main_arg6 (by decide)).trans (b2_arg6 m ρ c)
theorem b3_arg7 : W3 m ρ c (Proc.devRef .tc main_arg7) = x7 m c :=
  (W3_keep m ρ c main_arg7 (by decide)).trans (b2_arg7 m ρ c)
theorem b3_v1 : W3 m ρ c (Proc.devRef .tc main_v1) = (srcOf (x1 m c)) :=
  (W3_keep m ρ c main_v1 (by decide)).trans (b2_v1 m ρ c)
theorem b3_v3 : W3 m ρ c (Proc.devRef .tc main_v3) = (dstOf (x1 m c)) :=
  (W3_keep m ρ c main_v3 (by decide)).trans (b2_v3 m ρ c)
theorem b3_v6 : W3 m ρ c (Proc.devRef .tc main_v6) = (Cert.Net.h0Of (x0 m c) (x2 m c) (x3 m c)) :=
  (W3_keep m ρ c main_v6 (by decide)).trans (b2_v6 m ρ c)
theorem b3_v16 : W3 m ρ c (Proc.devRef .tc main_v16) = (aggOf (srcOf (x1 m c)) (dstOf (x1 m c)) (Cert.Net.h0Of (x0 m c) (x2 m c) (x3 m c))) :=
  (Host.s1_agg (W2 m ρ c)).trans (congr (congr (congrArg aggOf (b2_v1 m ρ c)) (b2_v3 m ρ c)) (b2_v6 m ρ c))
theorem b3_v21 : W3 m ρ c (Proc.devRef .tc main_v21) = (wLayerT0 (x4 m c)) :=
  (Host.s1_w (W2 m ρ c)).trans (congrArg wLayerT0 (b2_arg4 m ρ c))
theorem b3_v22 : W3 m ρ c (Proc.devRef .tc main_v22) = (bInRow (bLayer0 (x5 m c))) :=
  (Host.s1_b (W2 m ρ c)).trans (congrArg (fun b => bInRow (bLayer0 b)) (b2_arg5 m ρ c))

/-! ## After call 1 -/
theorem b4_arg4 : W4 m ρ c (Proc.devRef .tc main_arg4) = x4 m c :=
  (W4_of_ne m ρ c main_arg4 (by decide)).trans (b3_arg4 m ρ c)
theorem b4_arg5 : W4 m ρ c (Proc.devRef .tc main_arg5) = x5 m c :=
  (W4_of_ne m ρ c main_arg5 (by decide)).trans (b3_arg5 m ρ c)
theorem b4_arg6 : W4 m ρ c (Proc.devRef .tc main_arg6) = x6 m c :=
  (W4_of_ne m ρ c main_arg6 (by decide)).trans (b3_arg6 m ρ c)
theorem b4_arg7 : W4 m ρ c (Proc.devRef .tc main_arg7) = x7 m c :=
  (W4_of_ne m ρ c main_arg7 (by decide)).trans (b3_arg7 m ρ c)
theorem b4_v1 : W4 m ρ c (Proc.devRef .tc main_v1) = (srcOf (x1 m c)) :=
  (W4_of_ne m ρ c main_v1 (by decide)).trans (b3_v1 m ρ c)
theorem b4_v3 : W4 m ρ c (Proc.devRef .tc main_v3) = (dstOf (x1 m c)) :=
  (W4_of_ne m ρ c main_v3 (by decide)).trans (b3_v3 m ρ c)
theorem b4_v6 : W4 m ρ c (Proc.devRef .tc main_v6) = (Cert.Net.h0Of (x0 m c) (x2 m c) (x3 m c)) :=
  (W4_in m ρ c 0 rfl).trans (b3_v6 m ρ c)
theorem b4_v23 : W4 m ρ c (Proc.devRef .tc main_v23) = (Cert.Net.h1Of (x0 m c) (x1 m c) (x2 m c) (x3 m c) (x4 m c) (x5 m c)) :=
  (W4_arr m ρ c 4).trans ((final1 (V3 m ρ) c).trans (by unfold Cert.Net.h1Of Cert.Net.layerOf; exact (congr (congr (congr (congrArg Cert.Spec.linHid (b3_v6 m ρ c)) (b3_v16 m ρ c)) (b3_v21 m ρ c)) (b3_v22 m ρ c))))

/-! ## After the host stretch 2 -/
theorem b5_arg4 : W5 m ρ c (Proc.devRef .tc main_arg4) = x4 m c :=
  (W5_keep m ρ c main_arg4 (by decide)).trans (b4_arg4 m ρ c)
theorem b5_arg5 : W5 m ρ c (Proc.devRef .tc main_arg5) = x5 m c :=
  (W5_keep m ρ c main_arg5 (by decide)).trans (b4_arg5 m ρ c)
theorem b5_arg6 : W5 m ρ c (Proc.devRef .tc main_arg6) = x6 m c :=
  (W5_keep m ρ c main_arg6 (by decide)).trans (b4_arg6 m ρ c)
theorem b5_arg7 : W5 m ρ c (Proc.devRef .tc main_arg7) = x7 m c :=
  (W5_keep m ρ c main_arg7 (by decide)).trans (b4_arg7 m ρ c)
theorem b5_v1 : W5 m ρ c (Proc.devRef .tc main_v1) = (srcOf (x1 m c)) :=
  (W5_keep m ρ c main_v1 (by decide)).trans (b4_v1 m ρ c)
theorem b5_v3 : W5 m ρ c (Proc.devRef .tc main_v3) = (dstOf (x1 m c)) :=
  (W5_keep m ρ c main_v3 (by decide)).trans (b4_v3 m ρ c)
theorem b5_v6 : W5 m ρ c (Proc.devRef .tc main_v6) = (Cert.Net.h0Of (x0 m c) (x2 m c) (x3 m c)) :=
  (W5_keep m ρ c main_v6 (by decide)).trans (b4_v6 m ρ c)
theorem b5_v23 : W5 m ρ c (Proc.devRef .tc main_v23) = (Cert.Net.h1Of (x0 m c) (x1 m c) (x2 m c) (x3 m c) (x4 m c) (x5 m c)) :=
  (W5_keep m ρ c main_v23 (by decide)).trans (b4_v23 m ρ c)
theorem b5_v33 : W5 m ρ c (Proc.devRef .tc main_v33) = (aggOf (srcOf (x1 m c)) (dstOf (x1 m c)) (Cert.Net.h1Of (x0 m c) (x1 m c) (x2 m c) (x3 m c) (x4 m c) (x5 m c))) :=
  (Host.s2_agg (W4 m ρ c)).trans (congr (congr (congrArg aggOf (b4_v1 m ρ c)) (b4_v3 m ρ c)) (b4_v23 m ρ c))
theorem b5_v38 : W5 m ρ c (Proc.devRef .tc main_v38) = (wLayerT1 (x4 m c)) :=
  (Host.s2_w (W4 m ρ c)).trans (congrArg wLayerT1 (b4_arg4 m ρ c))
theorem b5_v39 : W5 m ρ c (Proc.devRef .tc main_v39) = (bInRow (bLayer1 (x5 m c))) :=
  (Host.s2_b (W4 m ρ c)).trans (congrArg (fun b => bInRow (bLayer1 b)) (b4_arg5 m ρ c))

/-! ## After call 2 -/
theorem b6_arg4 : W6 m ρ c (Proc.devRef .tc main_arg4) = x4 m c :=
  (W6_of_ne m ρ c main_arg4 (by decide)).trans (b5_arg4 m ρ c)
theorem b6_arg5 : W6 m ρ c (Proc.devRef .tc main_arg5) = x5 m c :=
  (W6_of_ne m ρ c main_arg5 (by decide)).trans (b5_arg5 m ρ c)
theorem b6_arg6 : W6 m ρ c (Proc.devRef .tc main_arg6) = x6 m c :=
  (W6_of_ne m ρ c main_arg6 (by decide)).trans (b5_arg6 m ρ c)
theorem b6_arg7 : W6 m ρ c (Proc.devRef .tc main_arg7) = x7 m c :=
  (W6_of_ne m ρ c main_arg7 (by decide)).trans (b5_arg7 m ρ c)
theorem b6_v1 : W6 m ρ c (Proc.devRef .tc main_v1) = (srcOf (x1 m c)) :=
  (W6_of_ne m ρ c main_v1 (by decide)).trans (b5_v1 m ρ c)
theorem b6_v3 : W6 m ρ c (Proc.devRef .tc main_v3) = (dstOf (x1 m c)) :=
  (W6_of_ne m ρ c main_v3 (by decide)).trans (b5_v3 m ρ c)
theorem b6_v6 : W6 m ρ c (Proc.devRef .tc main_v6) = (Cert.Net.h0Of (x0 m c) (x2 m c) (x3 m c)) :=
  (W6_of_ne m ρ c main_v6 (by decide)).trans (b5_v6 m ρ c)
theorem b6_v23 : W6 m ρ c (Proc.devRef .tc main_v23) = (Cert.Net.h1Of (x0 m c) (x1 m c) (x2 m c) (x3 m c) (x4 m c) (x5 m c)) :=
  (W6_in m ρ c 0 rfl).trans (b5_v23 m ρ c)
theorem b6_v40 : W6 m ρ c (Proc.devRef .tc main_v40) = (Cert.Net.h2Of (x0 m c) (x1 m c) (x2 m c) (x3 m c) (x4 m c) (x5 m c)) :=
  (W6_arr m ρ c 4).trans ((final2 (V5 m ρ) c).trans (by unfold Cert.Net.h2Of Cert.Net.layerOf; exact (congr (congr (congr (congrArg Cert.Spec.linHid (b5_v23 m ρ c)) (b5_v33 m ρ c)) (b5_v38 m ρ c)) (b5_v39 m ρ c))))

/-! ## After the host stretch 3 -/
theorem b7_arg6 : W7 m ρ c (Proc.devRef .tc main_arg6) = x6 m c :=
  (W7_keep m ρ c main_arg6 (by decide)).trans (b6_arg6 m ρ c)
theorem b7_arg7 : W7 m ρ c (Proc.devRef .tc main_arg7) = x7 m c :=
  (W7_keep m ρ c main_arg7 (by decide)).trans (b6_arg7 m ρ c)
theorem b7_v6 : W7 m ρ c (Proc.devRef .tc main_v6) = (Cert.Net.h0Of (x0 m c) (x2 m c) (x3 m c)) :=
  (W7_keep m ρ c main_v6 (by decide)).trans (b6_v6 m ρ c)
theorem b7_v23 : W7 m ρ c (Proc.devRef .tc main_v23) = (Cert.Net.h1Of (x0 m c) (x1 m c) (x2 m c) (x3 m c) (x4 m c) (x5 m c)) :=
  (W7_keep m ρ c main_v23 (by decide)).trans (b6_v23 m ρ c)
theorem b7_v40 : W7 m ρ c (Proc.devRef .tc main_v40) = (Cert.Net.h2Of (x0 m c) (x1 m c) (x2 m c) (x3 m c) (x4 m c) (x5 m c)) :=
  (W7_keep m ρ c main_v40 (by decide)).trans (b6_v40 m ρ c)
theorem b7_v50 : W7 m ρ c (Proc.devRef .tc main_v50) = (aggOf (srcOf (x1 m c)) (dstOf (x1 m c)) (Cert.Net.h2Of (x0 m c) (x1 m c) (x2 m c) (x3 m c) (x4 m c) (x5 m c))) :=
  (Host.s3_agg (W6 m ρ c)).trans (congr (congr (congrArg aggOf (b6_v1 m ρ c)) (b6_v3 m ρ c)) (b6_v40 m ρ c))
theorem b7_v55 : W7 m ρ c (Proc.devRef .tc main_v55) = (wLayerT2 (x4 m c)) :=
  (Host.s3_w (W6 m ρ c)).trans (congrArg wLayerT2 (b6_arg4 m ρ c))
theorem b7_v56 : W7 m ρ c (Proc.devRef .tc main_v56) = (bInRow (bLayer2 (x5 m c))) :=
  (Host.s3_b (W6 m ρ c)).trans (congrArg (fun b => bInRow (bLayer2 b)) (b6_arg5 m ρ c))

/-! ## After call 3 -/
theorem b8_arg6 : W8 m ρ c (Proc.devRef .tc main_arg6) = x6 m c :=
  (W8_of_ne m ρ c main_arg6 (by decide)).trans (b7_arg6 m ρ c)
theorem b8_arg7 : W8 m ρ c (Proc.devRef .tc main_arg7) = x7 m c :=
  (W8_of_ne m ρ c main_arg7 (by decide)).trans (b7_arg7 m ρ c)
theorem b8_v6 : W8 m ρ c (Proc.devRef .tc main_v6) = (Cert.Net.h0Of (x0 m c) (x2 m c) (x3 m c)) :=
  (W8_of_ne m ρ c main_v6 (by decide)).trans (b7_v6 m ρ c)
theorem b8_v23 : W8 m ρ c (Proc.devRef .tc main_v23) = (Cert.Net.h1Of (x0 m c) (x1 m c) (x2 m c) (x3 m c) (x4 m c) (x5 m c)) :=
  (W8_of_ne m ρ c main_v23 (by decide)).trans (b7_v23 m ρ c)
theorem b8_v40 : W8 m ρ c (Proc.devRef .tc main_v40) = (Cert.Net.h2Of (x0 m c) (x1 m c) (x2 m c) (x3 m c) (x4 m c) (x5 m c)) :=
  (W8_in m ρ c 0 rfl).trans (b7_v40 m ρ c)
theorem b8_v57 : W8 m ρ c (Proc.devRef .tc main_v57) = (Cert.Net.h3Of (x0 m c) (x1 m c) (x2 m c) (x3 m c) (x4 m c) (x5 m c)) :=
  (W8_arr m ρ c 4).trans ((final3 (V7 m ρ) c).trans (by unfold Cert.Net.h3Of Cert.Net.layerOf; exact (congr (congr (congr (congrArg Cert.Spec.linHid (b7_v40 m ρ c)) (b7_v50 m ρ c)) (b7_v55 m ρ c)) (b7_v56 m ρ c))))

/-! ## After the host stretch 4 -/
theorem b9_v58 : W9 m ρ c (Proc.devRef .tc main_v58) = (catOf (Cert.Net.h0Of (x0 m c) (x2 m c) (x3 m c)) (Cert.Net.h1Of (x0 m c) (x1 m c) (x2 m c) (x3 m c) (x4 m c) (x5 m c)) (Cert.Net.h2Of (x0 m c) (x1 m c) (x2 m c) (x3 m c) (x4 m c) (x5 m c)) (Cert.Net.h3Of (x0 m c) (x1 m c) (x2 m c) (x3 m c) (x4 m c) (x5 m c))) :=
  (Host.s4_cat (W8 m ρ c)).trans (congr (congr (congr (congrArg catOf (b8_v6 m ρ c)) (b8_v23 m ρ c)) (b8_v40 m ρ c)) (b8_v57 m ρ c))
theorem b9_v59 : W9 m ρ c (Proc.devRef .tc main_v59) = (wOutT (x6 m c)) :=
  (Host.s4_w (W8 m ρ c)).trans (congrArg wOutT (b8_arg6 m ρ c))
theorem b9_v60 : W9 m ρ c (Proc.devRef .tc main_v60) = (bOutRow (x7 m c)) :=
  (Host.s4_b (W8 m ρ c)).trans (congrArg bOutRow (b8_arg7 m ρ c))

/-! ## After call 4 -/
theorem b10_v61 : W10 m ρ c (Proc.devRef .tc main_v61) = (Cert.Net.netOf (x0 m c) (x1 m c) (x2 m c) (x3 m c) (x4 m c) (x5 m c) (x6 m c) (x7 m c)) :=
  (W10_arr m ρ c 3).trans ((final4 (V9 m ρ) c).trans (by unfold Cert.Net.netOf; exact (congr (congr (congrArg Cert.Spec.linOut (b9_v58 m ρ c)) (b9_v59 m ρ c)) (b9_v60 m ρ c))))

/-- The result buffer after the run is the network's function of the argument arrays. -/
theorem result_eq : W10 m ρ c (Proc.devRef .tc main_v61)
    = Cert.Net.netOf (x0 m c) (x1 m c) (x2 m c) (x3 m c) (x4 m c) (x5 m c) (x6 m c) (x7 m c) := b10_v61 m ρ c

end Cert.KernelIdeal.Frm

end
-- ==== Proof.Ref.lean ====
/-
  The reference network computes `netOf` of its eight argument arrays: each stage of the reference, read at an
  index, is the corresponding stage of the specification.
-/
import proofs.«155949_j8452495638861_1_alg».proof.Proof.Gen.ReferenceIdeal.Read
import proofs.«155949_j8452495638861_1_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe

/-- A bias vector [96] recast as a row [1, 96], read at column `q`, is the vector at `q`. -/
theorem bInRow_apply (b : (⟨S96, .f32⟩ : BufTy).Contents (Elt Ideal)) (q : Fin 96) :
    Cert.KernelIdeal.HostFns.bInRow b (ValueIdx.ix2 (0 : Fin 1) q) = b (ValueIdx.ix1 q) := by
  unfold Cert.KernelIdeal.HostFns.bInRow
  exact shapeCast_apply b _ (ValueIdx.ix2 (0 : Fin 1) q) (ValueIdx.ix1 q)
    (by rewrite [Shape.rowMajor_val_one, Shape.rowMajor_val_two]; show q.val = 0 * 96 + q.val; omega)

/-- The input projection of the reference is the specification's. -/
theorem stage_h0 (x0 : (⟨S50000x128, .f32⟩ : BufTy).Contents (Elt Ideal)) (x2 : (⟨S96x128, .f32⟩ : BufTy).Contents (Elt Ideal))
    (x3 : (⟨S96, .f32⟩ : BufTy).Contents (Elt Ideal)) :
    Read.val_main_v8 (F := Ideal) x0 x2 x3 = Cert.Net.h0Of x0 x2 x3 := by
  funext i
  obtain ⟨p, q, rfl⟩ : ∃ (p : Fin 50000) (q : Fin 96), i = ValueIdx.ix2 p q := ⟨i 0, i 1, ValueIdx.eq_ix2 i⟩
  have hw : Read.val_main_v4 (F := Ideal) x2 = Cert.KernelIdeal.HostFns.wInT x2 := rfl
  have el : ∀ k : Fin 128, Read.lidx_main_v5 (ValueIdx.ix2 p q) k = ValueIdx.ix2 p k := fun k =>
    funext fun a => Fin.ext (by match a with | ⟨0, _⟩ => rfl | ⟨1, _⟩ => rfl)
  have er : ∀ k : Fin 128, Read.ridx_main_v5 (ValueIdx.ix2 p q) k = ValueIdx.ix2 k q := fun k =>
    funext fun a => Fin.ext (by match a with | ⟨0, _⟩ => rfl | ⟨1, _⟩ => rfl)
  have eb : Read.idx_main_v6 (Read.idx_main_v7 (ValueIdx.ix2 p q)) = ValueIdx.ix1 q :=
    funext fun a => Fin.ext (by match a with | ⟨0, _⟩ => rfl)
  rw [Read.val_main_v8_apply, Read.val_main_v5_apply, Read.val_main_v7_apply, Read.val_main_v6_apply, hw, eb]
  unfold Cert.Net.h0Of
  rw [Cert.Spec.linIn_apply, bInRow_apply, Ideal.addf_def]
  simp only [el, er]

/-- The reference's neighbour sum — gather the rows of `h` at the source indices (a negative index wrapped by the node
    count), scatter-add them at the destination indices into zeros — is the shared function of the edge list and `h`. -/
theorem agg_eq (x1 : (⟨S2x800000, .i32⟩ : BufTy).Contents (Elt Ideal)) (h : FVec Ideal S50000x96 .f32) :
    Host.scatterAdd (F := Ideal) scatter_S50000x96_S800000x1_S800000x96_1_0_0_1 (Read.val_main_v16 (F := Ideal)) (Read.val_main_v17 (F := Ideal) x1)
      (Host.gather gather_S50000x96_S800000x1_S800000x96_1_0_n_n_0_1_196 h (Read.val_main_v14 (F := Ideal) x1))
      = Cert.KernelIdeal.HostFns.aggOf (Cert.KernelIdeal.HostFns.srcOf x1) (Cert.KernelIdeal.HostFns.dstOf x1) h := by
  unfold Read.val_main_v17 Read.val_main_v16 Read.val_main_cst Read.val_main_v14 Read.val_main_v13 Read.val_main_v12 Read.val_main_v11
    Read.val_main_c_0 Read.val_main_v10 Read.val_main_v9 Read.val_main_c Read.val_main_v3 Read.val_main_v2 Read.val_main_v1 Read.val_main_v0
    Cert.KernelIdeal.HostFns.aggOf Cert.KernelIdeal.HostFns.srcOf Cert.KernelIdeal.HostFns.dstOf
  rfl

/-- The neighbour sum of the state after the input projection. -/
theorem stage_agg0 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal)) :
    Read.val_main_v18 (F := Ideal) x0 x1 x2 x3
      = Cert.KernelIdeal.HostFns.aggOf (Cert.KernelIdeal.HostFns.srcOf x1) (Cert.KernelIdeal.HostFns.dstOf x1) (Read.val_main_v8 (F := Ideal) x0 x2 x3) := by
  unfold Read.val_main_v18 Read.val_main_v15
  exact agg_eq x1 _

/-- The neighbour sum of the state after graph layer 0. -/
theorem stage_agg1 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v38 (F := Ideal) x0 x1 x2 x3 x4 x5
      = Cert.KernelIdeal.HostFns.aggOf (Cert.KernelIdeal.HostFns.srcOf x1) (Cert.KernelIdeal.HostFns.dstOf x1) (Read.val_main_v28 (F := Ideal) x0 x1 x2 x3 x4 x5) := by
  unfold Read.val_main_v38 Read.val_main_v35
  exact agg_eq x1 _

/-- The neighbour sum of the state after graph layer 1. -/
theorem stage_agg2 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v58 (F := Ideal) x0 x1 x2 x3 x4 x5
      = Cert.KernelIdeal.HostFns.aggOf (Cert.KernelIdeal.HostFns.srcOf x1) (Cert.KernelIdeal.HostFns.dstOf x1) (Read.val_main_v48 (F := Ideal) x0 x1 x2 x3 x4 x5) := by
  unfold Read.val_main_v58 Read.val_main_v55
  exact agg_eq x1 _

/-- The product of a [50000, 96] array with a [96, 96] one, read at row `p`, column `q`: the sum over `k`. -/
theorem dot96_apply (y : FVec Ideal S50000x96 .f32) (w : FVec Ideal S96x96 .f32)
    (p : Fin 50000) (q : Fin 96) :
    Host.dotGeneral (F := Ideal) dot_S50000x96_S96x96_S50000x96_1_0_0_1_n_n none y w (ValueIdx.ix2 p q)
      = ∑ k : Fin 96, y (ValueIdx.ix2 p k) * w (ValueIdx.ix2 k q) := by
  simp only [Host.dotGeneral]
  rw [Ideal.dotGeneral_apply, ← Equiv.sum_comp (ValueIdx.contrEquiv1 dot_S50000x96_S96x96_S50000x96_1_0_0_1_n_n 96 rfl rfl).symm]
  refine Finset.sum_congr rfl fun k _ => ?_
  have hk := ValueIdx.contrEquiv1_symm_val dot_S50000x96_S96x96_S50000x96_1_0_0_1_n_n 96 rfl rfl k
  have el : dot_S50000x96_S96x96_S50000x96_1_0_0_1_n_n.lhsIdx (ValueIdx.ix2 p q) ((ValueIdx.contrEquiv1 dot_S50000x96_S96x96_S50000x96_1_0_0_1_n_n 96 rfl rfl).symm k) = ValueIdx.ix2 p k := funext fun a => Fin.ext (by
    match a with
    | ⟨0, _⟩ => exact Read.lhs_main_v23_0 _ _
    | ⟨1, _⟩ => exact (Read.lhs_main_v23_1 _ _).trans hk)
  have er : dot_S50000x96_S96x96_S50000x96_1_0_0_1_n_n.rhsIdx (ValueIdx.ix2 p q) ((ValueIdx.contrEquiv1 dot_S50000x96_S96x96_S50000x96_1_0_0_1_n_n 96 rfl rfl).symm k) = ValueIdx.ix2 k q := funext fun a => Fin.ext (by
    match a with
    | ⟨0, _⟩ => exact (Read.rhs_main_v23_0 _ _).trans hk
    | ⟨1, _⟩ => exact Read.rhs_main_v23_1 _ _)
  rw [el, er]

/-- A bias vector [96] broadcast to a row [1, 96] and then down the 50000 rows, read at (p, q), is the vector at `q`. -/
theorem biasRows_apply (b : FVec Ideal S96 .f32) (p : Fin 50000) (q : Fin 96) :
    broadcastInDim S50000x96 ![0, 1] bcast_S1x96_S50000x96_0_1 (broadcastInDim S1x96 ![1] bcast_S96_S1x96_1 b) (ValueIdx.ix2 p q)
      = b (ValueIdx.ix1 q) := by
  generalize hy : broadcastInDim S1x96 ![1] bcast_S96_S1x96_1 b = y
  rw [broadcastInDim_apply _ bcast_S1x96_S50000x96_0_1 y (ValueIdx.ix2 p q) (ValueIdx.ix2 (0 : Fin 1) q) (fun a => match a with
    | ⟨0, _⟩ => by show 0 = if (1 : Nat) = 1 then 0 else p.val; rw [if_pos rfl]
    | ⟨1, _⟩ => by show q.val = if (96 : Nat) = 1 then 0 else q.val; rw [if_neg (by decide)])]
  subst hy
  exact broadcastInDim_apply _ bcast_S96_S1x96_1 b (ValueIdx.ix2 (0 : Fin 1) q) (ValueIdx.ix1 q) (fun a => match a with
    | ⟨0, _⟩ => by show q.val = if (96 : Nat) = 1 then 0 else q.val; rw [if_neg (by decide)])

/-- One graph layer, generically: the product of `h + a` with an already transposed weight `w`, plus the bias `b`
    broadcast down the rows, is the specification's layer, index by index. -/
theorem layer_eq (h a : FVec Ideal S50000x96 .f32) (w : FVec Ideal S96x96 .f32) (b : FVec Ideal S96 .f32) :
    addf (Host.dotGeneral (F := Ideal) dot_S50000x96_S96x96_S50000x96_1_0_0_1_n_n none (addf h a) w)
        (broadcastInDim S50000x96 ![0, 1] bcast_S1x96_S50000x96_0_1 (broadcastInDim S1x96 ![1] bcast_S96_S1x96_1 b))
      = Cert.Spec.linHid h a w (Cert.KernelIdeal.HostFns.bInRow (F := Ideal) b) := by
  funext i
  obtain ⟨p, q, rfl⟩ : ∃ (p : Fin 50000) (q : Fin 96), i = ValueIdx.ix2 p q := ⟨i 0, i 1, ValueIdx.eq_ix2 i⟩
  rw [Cert.Spec.linHid_apply, bInRow_apply]
  show FloatOps.addf (Host.dotGeneral (F := Ideal) dot_S50000x96_S96x96_S50000x96_1_0_0_1_n_n none (addf h a) w (ValueIdx.ix2 p q))
      (broadcastInDim S50000x96 ![0, 1] bcast_S1x96_S50000x96_0_1 (broadcastInDim S1x96 ![1] bcast_S96_S1x96_1 b) (ValueIdx.ix2 p q)) = _
  rw [biasRows_apply, dot96_apply, Ideal.addf_def]
  rfl

/-- Graph layer 0 of the reference is the specification's. -/
theorem stage_h1 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v28 (F := Ideal) x0 x1 x2 x3 x4 x5 = Cert.Net.h1Of x0 x1 x2 x3 x4 x5 := by
  have hw : Read.val_main_v22 (F := Ideal) x4 = Cert.KernelIdeal.HostFns.wLayerT0 x4 := rfl
  have hb : Read.val_main_v25 (F := Ideal) x5 = Cert.KernelIdeal.HostFns.bLayer0 x5 := rfl
  unfold Read.val_main_v28 Read.val_main_v23 Read.val_main_v27 Read.val_main_v26 Read.val_main_v19
  rw [stage_agg0, stage_h0, hw, hb]
  unfold Cert.Net.h1Of Cert.Net.layerOf
  exact layer_eq _ _ _ _

/-- Graph layer 1 of the reference is the specification's. -/
theorem stage_h2 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v48 (F := Ideal) x0 x1 x2 x3 x4 x5 = Cert.Net.h2Of x0 x1 x2 x3 x4 x5 := by
  have hw : Read.val_main_v42 (F := Ideal) x4 = Cert.KernelIdeal.HostFns.wLayerT1 x4 := rfl
  have hb : Read.val_main_v45 (F := Ideal) x5 = Cert.KernelIdeal.HostFns.bLayer1 x5 := rfl
  unfold Read.val_main_v48 Read.val_main_v43 Read.val_main_v47 Read.val_main_v46 Read.val_main_v39
  rw [stage_agg1, stage_h1, hw, hb]
  unfold Cert.Net.h2Of Cert.Net.layerOf
  exact layer_eq _ _ _ _

/-- Graph layer 2 of the reference is the specification's. -/
theorem stage_h3 (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v68 (F := Ideal) x0 x1 x2 x3 x4 x5 = Cert.Net.h3Of x0 x1 x2 x3 x4 x5 := by
  have hw : Read.val_main_v62 (F := Ideal) x4 = Cert.KernelIdeal.HostFns.wLayerT2 x4 := rfl
  have hb : Read.val_main_v65 (F := Ideal) x5 = Cert.KernelIdeal.HostFns.bLayer2 x5 := rfl
  unfold Read.val_main_v68 Read.val_main_v63 Read.val_main_v67 Read.val_main_v66 Read.val_main_v59
  rw [stage_agg2, stage_h2, hw, hb]
  unfold Cert.Net.h3Of Cert.Net.layerOf
  exact layer_eq _ _ _ _

/-- The four states side by side. -/
theorem stage_cat (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal)) :
    Read.val_main_v69 (F := Ideal) x0 x1 x2 x3 x4 x5
      = Cert.KernelIdeal.HostFns.catOf (Cert.Net.h0Of x0 x2 x3) (Cert.Net.h1Of x0 x1 x2 x3 x4 x5) (Cert.Net.h2Of x0 x1 x2 x3 x4 x5)
          (Cert.Net.h3Of x0 x1 x2 x3 x4 x5) := by
  unfold Read.val_main_v69
  rw [stage_h0, stage_h1, stage_h2, stage_h3]
  rfl

/-- A bias vector [128] recast as a row [1, 128], read at column `q`, is the vector at `q`. -/
theorem bOutRow_apply (b : (⟨S128, .f32⟩ : BufTy).Contents (Elt Ideal)) (q : Fin 128) :
    Cert.KernelIdeal.HostFns.bOutRow b (ValueIdx.ix2 (0 : Fin 1) q) = b (ValueIdx.ix1 q) := by
  unfold Cert.KernelIdeal.HostFns.bOutRow
  exact shapeCast_apply b _ (ValueIdx.ix2 (0 : Fin 1) q) (ValueIdx.ix1 q)
    (by rewrite [Shape.rowMajor_val_one, Shape.rowMajor_val_two]; show q.val = 0 * 128 + q.val; omega)

/-- The output projection: the reference's result is the network's. -/
theorem stage_out (x0 : (⟨S50000x128, .f32⟩ : BufTy).Contents (Elt Ideal)) (x1 : (⟨S2x800000, .i32⟩ : BufTy).Contents (Elt Ideal))
    (x2 : (⟨S96x128, .f32⟩ : BufTy).Contents (Elt Ideal)) (x3 : (⟨S96, .f32⟩ : BufTy).Contents (Elt Ideal))
    (x4 : (⟨S3x96x96, .f32⟩ : BufTy).Contents (Elt Ideal)) (x5 : (⟨S3x96, .f32⟩ : BufTy).Contents (Elt Ideal))
    (x6 : (⟨S128x384, .f32⟩ : BufTy).Contents (Elt Ideal)) (x7 : (⟨S128, .f32⟩ : BufTy).Contents (Elt Ideal)) :
    Read.val_main_v74 (F := Ideal) x0 x1 x2 x3 x4 x5 x6 x7 = Cert.Net.netOf x0 x1 x2 x3 x4 x5 x6 x7 := by
  funext i
  obtain ⟨p, q, rfl⟩ : ∃ (p : Fin 50000) (q : Fin 128), i = ValueIdx.ix2 p q := ⟨i 0, i 1, ValueIdx.eq_ix2 i⟩
  have hw : Read.val_main_v70 (F := Ideal) x6 = Cert.KernelIdeal.HostFns.wOutT x6 := rfl
  have el : ∀ k : Fin 384, Read.lidx_main_v71 (ValueIdx.ix2 p q) k = ValueIdx.ix2 p k := fun k =>
    funext fun a => Fin.ext (by match a with | ⟨0, _⟩ => rfl | ⟨1, _⟩ => rfl)
  have er : ∀ k : Fin 384, Read.ridx_main_v71 (ValueIdx.ix2 p q) k = ValueIdx.ix2 k q := fun k =>
    funext fun a => Fin.ext (by match a with | ⟨0, _⟩ => rfl | ⟨1, _⟩ => rfl)
  have eb : Read.idx_main_v72 (Read.idx_main_v73 (ValueIdx.ix2 p q)) = ValueIdx.ix1 q :=
    funext fun a => Fin.ext (by match a with | ⟨0, _⟩ => rfl)
  rw [Read.val_main_v74_apply, Read.val_main_v71_apply, Read.val_main_v73_apply, Read.val_main_v72_apply, hw, eb, stage_cat]
  unfold Cert.Net.netOf
  rw [Cert.Spec.linOut_apply, bOutRow_apply, Ideal.addf_def]
  simp only [el, er]

/-- The reference program's result is the network function of its eight arguments. -/
theorem ref_value (m : (ℓ : Loc nD τ sig) → Buf (Elt Ideal) ℓ) (c : Dev nD) :
    Cert.ReferenceIdeal.Value.res_out0 (F := Ideal) m c
      = Cert.Net.netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (Read.val_main_v74_eq m c).trans (stage_out _ _ _ _ _ _ _ _)

end Cert.ReferenceIdeal.RefValue

end
-- ==== Proof.lean ====
/-
  The certificate of a graph network: an input projection, three graph-isomorphism layers
  (h ← (h + Σ_{edges into i} h[source]) · Wᵀ + b) and an output projection of the four states side by side.

  The kernel runs every matrix product as a Pallas call over row blocks of 2000 nodes (operands narrowed to bf16 —
  the identity at the ideal values — and multiplied into a zero accumulator, the bias row added), and leaves the
  gather / scatter-add of the neighbour sum, the transposes, slices and the concatenation to the host; the reference
  is the same network in plain jnp.  At the ideal values both compute `Cert.Net.netOf` of the eight arguments: each
  call's output array is, entry by entry, the sum over k of lhs[i,k] * rhs[k,j] plus b[j] (a product into zeros and the
  host's dot_general are that same sum; only commutativity and associativity of + and * on the extended reals are
  used, so the finiteness of the inputs is never needed), and the host operations between the calls are the same
  operations in both programs, carried as named functions and never opened.

  The three frames: both kernel programs run from the launch to the return through @main's ten items (five host
  stretches, five calls), every argument buffer untouched; the reference's frame is its run with the result dropped.
  Nothing was rewritten by the idealization, so `preserves` is trivial.
-/
import proofs.«155949_j8452495638861_1_alg».proof.Defs
import proofs.«155949_j8452495638861_1_alg».proof.Proof.Gen.Kernel
import proofs.«155949_j8452495638861_1_alg».proof.Proof.Gen.KernelIdeal
import proofs.«155949_j8452495638861_1_alg».proof.Proof.Gen.ReferenceIdeal
import proofs.«155949_j8452495638861_1_alg».proof.Proof.Gen.Pre_finite_inputs
import proofs.«155949_j8452495638861_1_alg».proof.Proof.Gen.ReferenceIdeal.Run
import proofs.«155949_j8452495638861_1_alg».proof.Proof.Gen.ReferenceIdeal.Read
import proofs.«155949_j8452495638861_1_alg».proof.Proof.K.Run
import proofs.«155949_j8452495638861_1_alg».proof.Proof.KI.Run
import proofs.«155949_j8452495638861_1_alg».proof.Proof.KI.Value
import proofs.«155949_j8452495638861_1_alg».proof.Proof.Ref
import Idealize.ShloMosaic.Adequacy
import Idealize.ShloMosaic.Init

noncomputable section

namespace Cert.Proof

open Idealize.ShloMosaic Idealize.SL.Sem

/-- The word-level kernel runs to the end and leaves its arguments as launched. -/
theorem frame_k [Cert.Kernel.Facts] [Cert.Pre_finite_inputs.Facts] : Cert.frame_Kernel :=
  fun m ρ _ => Cert.Kernel.Frm.frame m ρ

/-- So does the idealized kernel. -/
theorem frame_ki [Cert.KernelIdeal.Facts] [Cert.Pre_finite_inputs.Facts] : Cert.frame_KernelIdeal :=
  fun m ρ _ => Cert.KernelIdeal.Frm.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the network's function of the arguments in their result buffer. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Net.netOf (Cert.KernelIdeal.Frm.x0 m c) (Cert.KernelIdeal.Frm.x1 m c) (Cert.KernelIdeal.Frm.x2 m c)
      (Cert.KernelIdeal.Frm.x3 m c) (Cert.KernelIdeal.Frm.x4 m c) (Cert.KernelIdeal.Frm.x5 m c) (Cert.KernelIdeal.Frm.x6 m c)
      (Cert.KernelIdeal.Frm.x7 m c), ?_, ?_⟩
  · exact (θ_run Cert.KernelIdeal.defs _ _).mono
      (fun r h c => ⟨(h c).1.trans (Cert.KernelIdeal.Frm.result_eq m ρ c), (h c).2⟩)
      (Cert.KernelIdeal.Frm.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.ref_value m' c).trans ?_
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
